-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50257x1024 : Shape := ⟨2, ![50257, 1024]⟩
abbrev S131072x1024 : Shape := ⟨2, ![131072, 1024]⟩
abbrev S131072 : Shape := ⟨1, ![131072]⟩
abbrev S_ : Shape := ⟨0, ![]⟩

class Facts : Prop where
  bcast_S_S50257x1024 : S_.BroadcastsInDim S50257x1024 (![] : Fin 0 → Fin S50257x1024.rank)
  reducesTo_S50257x1024_S_d0_1 : S50257x1024.ReducesTo [0, 1] S_
  h_S_ : 0 < S_.numel
  bcast_S_S131072x1024 : S_.BroadcastsInDim S131072x1024 (![] : Fin 0 → Fin S131072x1024.rank)
  reducesTo_S131072x1024_S_d0_1 : S131072x1024.ReducesTo [0, 1] S_

variable [Facts]

def fn {F : FTy → Type} [FloatOps F] (main_arg0 : FVec F S50257x1024 .f32) (main_arg1 : FVec F S131072x1024 .f32) (main_arg2 : IVec S131072 32) : IVec S_ 1 :=
  let main_v0 : FVec F S50257x1024 .f32 := Host.absf main_arg0
  let main_cst : FVec F S_ .f32 := constant S_ .f32 0x7F800000#32
  let main_v1 : FVec F S50257x1024 .f32 := broadcastInDim S50257x1024 ![] bcast_S_S50257x1024 main_cst
  let main_v2 : IVec S50257x1024 1 := cmpf .olt main_v0 main_v1
  let main_c : IVec S_ 1 := constantI S_ 1 1#1
  let main_v3 : IVec S_ 1 := (fun x v => Host.reduce IntOp.andi x v reducesTo_S50257x1024_S_d0_1 h_S_) main_v2 main_c
  let main_v4 : FVec F S131072x1024 .f32 := Host.absf main_arg1
  let main_cst_0 : FVec F S_ .f32 := constant S_ .f32 0x7F800000#32
  let main_v5 : FVec F S131072x1024 .f32 := broadcastInDim S131072x1024 ![] bcast_S_S131072x1024 main_cst_0
  let main_v6 : IVec S131072x1024 1 := cmpf .olt main_v4 main_v5
  let main_c_1 : IVec S_ 1 := constantI S_ 1 1#1
  let main_v7 : IVec S_ 1 := (fun x v => Host.reduce IntOp.andi x v reducesTo_S131072x1024_S_d0_1 h_S_) main_v6 main_c_1
  let main_v8 : IVec S_ 1 := andi main_v3 main_v7
  main_v8
-- ==== Kernel.lean ====
abbrev S50257x1024 : Shape := ⟨2, ![50257, 1024]⟩
abbrev S131072x1024 : Shape := ⟨2, ![131072, 1024]⟩
abbrev S131072 : Shape := ⟨1, ![131072]⟩
abbrev S_ : Shape := ⟨0, ![]⟩
abbrev S50688x1024 : Shape := ⟨2, ![50688, 1024]⟩
abbrev S131072x1 : Shape := ⟨2, ![131072, 1]⟩
abbrev S1x50688 : Shape := ⟨2, ![1, 50688]⟩
abbrev S1024x1024 : Shape := ⟨2, ![1024, 1024]⟩
abbrev S1024x1 : Shape := ⟨2, ![1024, 1]⟩
abbrev S512x1024 : Shape := ⟨2, ![512, 1024]⟩
abbrev S1x512 : Shape := ⟨2, ![1, 512]⟩
abbrev S1024x512 : Shape := ⟨2, ![1024, 512]⟩
abbrev S1024 : Shape := ⟨1, ![1024]⟩
abbrev S512 : Shape := ⟨1, ![512]⟩
abbrev S512x1 : Shape := ⟨2, ![512, 1]⟩
abbrev S1x50257 : Shape := ⟨2, ![1, 50257]⟩
abbrev S1 : Shape := ⟨1, ![1]⟩
abbrev S1x1 : Shape := ⟨2, ![1, 1]⟩

abbrev nBuf : Space → Nat
  | .hbm => 24
  | .vmem => 9
  | .smem => 0
  | _ => 0

abbrev bufTy : (tb : Table) → Fin (tcTables nBuf tb) → BufTy
  | .hbm, ⟨0, _⟩ => ⟨S50257x1024, .f32⟩
  | .hbm, ⟨1, _⟩ => ⟨S131072x1024, .f32⟩
  | .hbm, ⟨2, _⟩ => ⟨S131072, .i32⟩
  | .hbm, ⟨3, _⟩ => ⟨S_, .i32⟩
  | .hbm, ⟨4, _⟩ => ⟨S_, .f32⟩
  | .hbm, ⟨5, _⟩ => ⟨S50688x1024, .f32⟩
  | .hbm, ⟨6, _⟩ => ⟨S131072x1, .i32⟩
  | .hbm, ⟨7, _⟩ => ⟨S1x50688, .f32⟩
  | .hbm, ⟨8, _⟩ => ⟨S1x50257, .f32⟩
  | .hbm, ⟨9, _⟩ => ⟨S_, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S1x1, .f32⟩
  | .hbm, ⟨15, _⟩ => ⟨S1x50257, .f32⟩
  | .hbm, ⟨16, _⟩ => ⟨S1x50257, .f32⟩
  | .hbm, ⟨17, _⟩ => ⟨S1x50257, .f32⟩
  | .hbm, ⟨18, _⟩ => ⟨S_, .f32⟩
  | .hbm, ⟨19, _⟩ => ⟨S1, .f32⟩
  | .hbm, ⟨20, _⟩ => ⟨S1x1, .f32⟩
  | .hbm, ⟨21, _⟩ => ⟨S1x1, .f32⟩
  | .hbm, ⟨22, _⟩ => ⟨S1x50257, .f32⟩
  | .hbm, ⟨23, _⟩ => ⟨S1x50257, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | _, _ => ⟨S50257x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call1_cst : Ref sig .tc := ⟨.hbm, 9, rfl⟩
abbrev main_call1_v0 : Ref sig .tc := ⟨.hbm, 10, rfl⟩
abbrev main_call1_cst_0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_cst_1 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_v4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![99, 128], ![false, false]⟩

def k0_cond2 (i : grid0.Coords) : BitVec 1 :=
  let arg1 : BitVec 32 := BitVec.ofNat 32 (i 1).val
  let c127_i32 : BitVec 32 := 127#32
  let v46 : BitVec 1 := Scalar.cmpi .eq arg1 c127_i32
  let v47 : BitVec 32 := Scalar.extui v46
  let c0_i32_17 : BitVec 32 := 0#32
  let v48 : BitVec 1 := Scalar.cmpi .ne v47 c0_i32_17
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S50257x1024_S50688x1024_04310_000 : S50257x1024.Pads (![0, 0] : Fin 2 → Nat) ![431, 0] ![0, 0] S50688x1024
  h_S_ : 0 < S_.numel
  shapeCasts_S131072_S131072x1 : S131072.ShapeCasts S131072x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  bitsLt_bf16_f32 : FTy.bits .bf16 < FTy.bits .f32
  reduces_S1024x1024_S1024 : S1024x1024.Reduces [1] S1024
  shapeCasts_S1024_S1024x1 : S1024.ShapeCasts S1024x1
  reduces_S512x1024_S512 : S512x1024.Reduces [1] S512
  shapeCasts_S512_S512x1 : S512.ShapeCasts S512x1
  transposes_S512x1_p1_0_S1x512 : S512x1.Transposes [1, 0] S1x512
  broadcasts_S1024x1_S1024x512 : S1024x1.Broadcasts S1024x512
  broadcasts_S1x512_S1024x512 : S1x512.Broadcasts S1024x512
  iota_S1x512_d1_w32 : S1x512.Iotas .tc 32 [1]
  reduces_S1024x512_S512 : S1024x512.Reduces [0] S512
  shapeCasts_S512_S1x512 : S512.ShapeCasts S1x512
  slices_S1x50688_S1x50257_0_0 : S1x50688.Slices ![0, 0] S1x50257
  reducesTo_S1x50257_S1_d1 : S1x50257.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S131072x1024.size a
  hwx0_0 : ∀ i : grid0.Coords, EltTy.bits .f32 = 32 ∨ (Rect.block (s := S131072x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S131072x1.size a
  hwx0_1 : ∀ i : grid0.Coords, EltTy.bits .i32 = 32 ∨ (Rect.block (s := S131072x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S50688x1024.size a
  hwx0_2 : ∀ i : grid0.Coords, EltTy.bits .f32 = 32 ∨ (Rect.block (s := S50688x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x50688.size a
  hwx0_3 : ∀ i : grid0.Coords, EltTy.bits .f32 = 32 ∨ (Rect.block (s := S1x50688) S1x512.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S50257x1024 : Shape := ⟨2, ![50257, 1024]⟩
abbrev S131072x1024 : Shape := ⟨2, ![131072, 1024]⟩
abbrev S131072 : Shape := ⟨1, ![131072]⟩
abbrev S_ : Shape := ⟨0, ![]⟩
abbrev S131072x1 : Shape := ⟨2, ![131072, 1]⟩
abbrev S50257 : Shape := ⟨1, ![50257]⟩
abbrev S1x50257 : Shape := ⟨2, ![1, 50257]⟩
abbrev S1 : Shape := ⟨1, ![1]⟩
abbrev S1x1 : Shape := ⟨2, ![1, 1]⟩

abbrev nBuf : Space → Nat
  | .hbm => 41
  | .vmem => 0
  | .smem => 0
  | _ => 0

abbrev bufTy : (tb : Table) → Fin (tcTables nBuf tb) → BufTy
  | .hbm, ⟨0, _⟩ => ⟨S50257x1024, .f32⟩
  | .hbm, ⟨1, _⟩ => ⟨S131072x1024, .f32⟩
  | .hbm, ⟨2, _⟩ => ⟨S131072, .i32⟩
  | .hbm, ⟨3, _⟩ => ⟨S_, .i32⟩
  | .hbm, ⟨4, _⟩ => ⟨S131072, .i32⟩
  | .hbm, ⟨5, _⟩ => ⟨S131072, .i1⟩
  | .hbm, ⟨6, _⟩ => ⟨S_, .i32⟩
  | .hbm, ⟨7, _⟩ => ⟨S131072, .i32⟩
  | .hbm, ⟨8, _⟩ => ⟨S131072, .i32⟩
  | .hbm, ⟨9, _⟩ => ⟨S131072, .i32⟩
  | .hbm, ⟨10, _⟩ => ⟨S131072x1, .i32⟩
  | .hbm, ⟨11, _⟩ => ⟨S131072x1024, .f32⟩
  | .hbm, ⟨12, _⟩ => ⟨S131072x1024, .f32⟩
  | .hbm, ⟨13, _⟩ => ⟨S131072x1024, .f32⟩
  | .hbm, ⟨14, _⟩ => ⟨S_, .f32⟩
  | .hbm, ⟨15, _⟩ => ⟨S131072, .f32⟩
  | .hbm, ⟨16, _⟩ => ⟨S131072, .f32⟩
  | .hbm, ⟨17, _⟩ => ⟨S_, .f32⟩
  | .hbm, ⟨18, _⟩ => ⟨S131072, .f32⟩
  | .hbm, ⟨19, _⟩ => ⟨S131072, .f32⟩
  | .hbm, ⟨20, _⟩ => ⟨S131072, .f32⟩
  | .hbm, ⟨21, _⟩ => ⟨S_, .f32⟩
  | .hbm, ⟨22, _⟩ => ⟨S50257, .f32⟩
  | .hbm, ⟨23, _⟩ => ⟨S131072x1, .i32⟩
  | .hbm, ⟨24, _⟩ => ⟨S50257, .f32⟩
  | .hbm, ⟨25, _⟩ => ⟨S1x50257, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S1x1, .f32⟩
  | .hbm, ⟨32, _⟩ => ⟨S1x50257, .f32⟩
  | .hbm, ⟨33, _⟩ => ⟨S1x50257, .f32⟩
  | .hbm, ⟨34, _⟩ => ⟨S1x50257, .f32⟩
  | .hbm, ⟨35, _⟩ => ⟨S_, .f32⟩
  | .hbm, ⟨36, _⟩ => ⟨S1, .f32⟩
  | .hbm, ⟨37, _⟩ => ⟨S1x1, .f32⟩
  | .hbm, ⟨38, _⟩ => ⟨S1x1, .f32⟩
  | .hbm, ⟨39, _⟩ => ⟨S1x50257, .f32⟩
  | .hbm, ⟨40, _⟩ => ⟨S1x50257, .f32⟩
  | _, _ => ⟨S50257x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_call0_cst_0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_cst_1 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_v18 : Ref sig .tc := ⟨.hbm, 40, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  reducesTo_S131072x1024_S131072_d1 : S131072x1024.ReducesTo [1] S131072
  h_S_ : 0 < S_.numel
  bcast_S_S50257 : S_.BroadcastsInDim S50257 (![] : Fin 0 → Fin S50257.rank)
  bcast_S50257_S1x50257_1 : S50257.BroadcastsInDim S1x50257 (![1] : Fin 1 → Fin S1x50257.rank)
  reducesTo_S1x50257_S1_d1 : S1x50257.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  gather_S50257x1024_S131072x1_S131072x1024_1_0_n_n_0_1_11024_wf : GatherDims.WF S50257x1024 S131072x1 S131072x1024 [1] [0] [] [0] [] 1 ![1, 1024]
  scatter_S50257_S131072x1_S131072_n_0_0_1_wf : ScatterDims.WF S50257 S131072x1 S131072 [] [0] [0] 1

variable [Facts₀]

def gather_S50257x1024_S131072x1_S131072x1024_1_0_n_n_0_1_11024 : GatherDims S50257x1024 S131072x1 S131072x1024 where
  offsetDims := [1]
  collapsedSliceDims := [0]
  operandBatchingDims := []
  startIndicesBatchingDims := []
  startIndexMap := [0]
  indexVectorDim := 1
  sliceSizes := ![1, 1024]
  wf := gather_S50257x1024_S131072x1_S131072x1024_1_0_n_n_0_1_11024_wf
def scatter_S50257_S131072x1_S131072_n_0_0_1 : ScatterDims S50257 S131072x1 S131072 where
  updateWindowDims := []
  insertedWindowDims := [0]
  scatterDimsToOperandDims := [0]
  indexVectorDim := 1
  wf := scatter_S50257_S131072x1_S131072_n_0_0_1_wf

class Facts : Prop extends Facts₀ where

variable [Facts]
-- ==== Proof.Pieces.lean ====
/-
  What the body leaves behind at a grid point, case by case.

  The accumulator (a scratch row of 512 lanes) is carried from point to point.  At the first cache tile of a vocabulary
  tile the body resets it to zero and then adds the point's partial sums; at the other points it adds them to what the
  point before left; at the last cache tile it also copies the accumulator into the output row.
-/
import proofs.«415057_j28071906246843_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- The accumulator after a point that starts from what the point before left (`acc`): `acc` plus the point's partial sums. -/
abbrev step (i : grid0.Coords) (x0 : Vec F S1024x1024 .f32) (x1 : Vec F S1024x1 .i32) (x2 : Vec F S512x1024 .f32) (acc : Vec F S1x512 .f32) : Vec F S1x512 .f32 :=
  k0_pay1 (k0_pay3 i x0 x2 x1) acc

theorem sout_B (c : Dev nD) (i : grid0.Coords) (a2 : Memref sig .tc .vmem S1024x1024 .f32) (h2 : a2.IsWhole) (a3 : Memref sig .tc .vmem S1024x1 .i32) (h3 : a3.IsWhole) (a4 : Memref sig .tc .vmem S512x1024 .f32) (h4 : a4.IsWhole) (a5 : Memref sig .tc .vmem S1x512 .f32) (h5 : a5.IsWhole) (a6 : Memref sig .tc .vmem S1x512 .f32) (h6 : a6.IsWhole) (hc0 : ¬cond0_0 i) (hc1 : ¬cond0_1 i) (x0 : Vec F S1024x1024 .f32) (x1 : Vec F S1024x1 .i32) (x2 : Vec F S512x1024 .f32) (xs0 : Vec F S1x512 .f32) :
    sout0_B_0 c i a2 h2 a3 h3 a4 h4 a5 h5 a6 h6 hc0 hc1 x0 x1 x2 xs0 = step i x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz]
  simp only [View.readAt_eq_ld, h2.read_unread, h3.read_unread, h4.read_unread, h6.read_unread, View.ld_unit_zero (S := S1024x1024) hz, View.ld_unit_zero (S := S1024x1) hz, View.ld_unit_zero (S := S512x1024) hz, View.ld_unit_zero (S := S1x512) hz, View.readCov_unit_zero (S := S1x512) _ hz]

theorem sout_A (c : Dev nD) (i : grid0.Coords) (a2 : Memref sig .tc .vmem S1024x1024 .f32) (h2 : a2.IsWhole) (a3 : Memref sig .tc .vmem S1024x1 .i32) (h3 : a3.IsWhole) (a4 : Memref sig .tc .vmem S512x1024 .f32) (h4 : a4.IsWhole) (a5 : Memref sig .tc .vmem S1x512 .f32) (h5 : a5.IsWhole) (a6 : Memref sig .tc .vmem S1x512 .f32) (h6 : a6.IsWhole) (hc0 : cond0_0 i) (hc1 : ¬cond0_1 i) (x0 : Vec F S1024x1024 .f32) (x1 : Vec F S1024x1 .i32) (x2 : Vec F S512x1024 .f32) :
    sout0_A_0 c i a2 h2 a3 h3 a4 h4 a5 h5 a6 h6 hc0 hc1 x0 x1 x2 = step i x0 x1 x2 (k0_pay2 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x512) hz, View.readCov_unit_zero (S := S1x512) _ hz]
  simp only [View.readAt_eq_ld, h2.read_unread, h3.read_unread, h4.read_unread, h6.read_unread, View.ld_unit_zero (S := S1024x1024) hz, View.ld_unit_zero (S := S1024x1) hz, View.ld_unit_zero (S := S512x1024) hz, View.ld_unit_zero (S := S1x512) hz, View.readCov_unit_zero (S := S1x512) _ hz]

theorem sout_C (c : Dev nD) (i : grid0.Coords) (a2 : Memref sig .tc .vmem S1024x1024 .f32) (h2 : a2.IsWhole) (a3 : Memref sig .tc .vmem S1024x1 .i32) (h3 : a3.IsWhole) (a4 : Memref sig .tc .vmem S512x1024 .f32) (h4 : a4.IsWhole) (a5 : Memref sig .tc .vmem S1x512 .f32) (h5 : a5.IsWhole) (a6 : Memref sig .tc .vmem S1x512 .f32) (h6 : a6.IsWhole) (hc0 : ¬cond0_0 i) (hc1 : cond0_1 i) (x0 : Vec F S1024x1024 .f32) (x1 : Vec F S1024x1 .i32) (x2 : Vec F S512x1024 .f32) (xs0 : Vec F S1x512 .f32) :
    sout0_C_0 c i a2 h2 a3 h3 a4 h4 a5 h5 a6 h6 hc0 hc1 x0 x1 x2 xs0 = step i x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread, View.ld_unit_zero (S := S1024x1024) hz, View.ld_unit_zero (S := S1024x1) hz, View.ld_unit_zero (S := S512x1024) hz, View.ld_unit_zero (S := S1x512) hz, View.readCov_unit_zero (S := S1x512) _ hz]

theorem out_C (c : Dev nD) (i : grid0.Coords) (a2 : Memref sig .tc .vmem S1024x1024 .f32) (h2 : a2.IsWhole) (a3 : Memref sig .tc .vmem S1024x1 .i32) (h3 : a3.IsWhole) (a4 : Memref sig .tc .vmem S512x1024 .f32) (h4 : a4.IsWhole) (a5 : Memref sig .tc .vmem S1x512 .f32) (h5 : a5.IsWhole) (a6 : Memref sig .tc .vmem S1x512 .f32) (h6 : a6.IsWhole) (hc0 : ¬cond0_0 i) (hc1 : cond0_1 i) (x0 : Vec F S1024x1024 .f32) (x1 : Vec F S1024x1 .i32) (x2 : Vec F S512x1024 .f32) (xs0 : Vec F S1x512 .f32) :
    out0_C_3 c i a2 h2 a3 h3 a4 h4 a5 h5 a6 h6 hc0 hc1 x0 x1 x2 xs0 = step i x0 x1 x2 xs0 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread, View.ld_unit_zero (S := S1024x1024) hz, View.ld_unit_zero (S := S1024x1) hz, View.ld_unit_zero (S := S512x1024) hz, View.ld_unit_zero (S := S1x512) hz, View.readCov_unit_zero (S := S1x512) _ hz]

end Cert.KernelIdeal.Pieces

end
-- ==== Proof.Acc.lean ====
/-
  The accumulator, point by point.

  Grid point n is (n / 128, n % 128): vocabulary tile n / 128, cache tile n % 128.  Where n % 128 = 0 the accumulator
  restarts from zero; elsewhere it continues from the point before.  So after point n it holds, lane by lane, the sum of
  the partial sums of the points 128·(n / 128) … n, and at the last cache tile of a vocabulary tile (n % 128 = 127)
  the output row is that accumulator.
-/
import proofs.«415057_j28071906246843_1_alg».proof.Proof.Pieces
import Idealize.ShloMosaic.Lib.ValueIdx
import Idealize.ShloMosaic.Lib.ValueLayout
import Idealize.ShloMosaic.PureOps.Ideal.Laws

noncomputable section

namespace Cert.KernelIdeal.Acc

open Idealize.ShloMosaic Idealize.ShloMosaic.TcCoe Idealize.SL.Sem Idealize.ShloMosaic.ValueIdx
open Cert.KernelIdeal Cert.KernelIdeal.Gen Cert.KernelIdeal.Pieces

section AnyValues

variable {F : FTy → Type} [FloatOps F]
variable (m : (ℓ : Loc nD τ sig) → Buf (Elt F) ℓ)

/-- The three input tiles at grid point t, under their literal types. -/
abbrev tc (c : Dev nD) (t : Fin cfg0.N) : Vec F S1024x1024 .f32 := iblk m c 0 t
abbrev tw (c : Dev nD) (t : Fin cfg0.N) : Vec F S1024x1 .i32 := iblk m c 1 t
abbrev th (c : Dev nD) (t : Fin cfg0.N) : Vec F S512x1024 .f32 := iblk m c 2 t

/-- The accumulator after point n. -/
def acc (c : Dev nD) : (n : ℕ) → n < cfg0.N → Vec F S1x512 .f32
  | 0, h => step (grid0.coords ⟨0, h⟩) (tc m c ⟨0, h⟩) (tw m c ⟨0, h⟩) (th m c ⟨0, h⟩) (k0_pay2 (F := F))
  | n + 1, h =>
    if (n + 1) % 128 = 0 then
      step (grid0.coords ⟨n + 1, h⟩) (tc m c ⟨n + 1, h⟩) (tw m c ⟨n + 1, h⟩) (th m c ⟨n + 1, h⟩) (k0_pay2 (F := F))
    else
      step (grid0.coords ⟨n + 1, h⟩) (tc m c ⟨n + 1, h⟩) (tw m c ⟨n + 1, h⟩) (th m c ⟨n + 1, h⟩) (acc c n (Nat.lt_of_succ_lt h))

theorem acc_restart (c : Dev nD) (n : ℕ) (h : n + 1 < cfg0.N) (h0 : (n + 1) % 128 = 0) :
    acc m c (n + 1) h = step (grid0.coords ⟨n + 1, h⟩) (tc m c ⟨n + 1, h⟩) (tw m c ⟨n + 1, h⟩) (th m c ⟨n + 1, h⟩) (k0_pay2 (F := F)) := by
  rw [acc, if_pos h0]

theorem acc_continue (c : Dev nD) (n : ℕ) (h : n + 1 < cfg0.N) (h0 : ¬(n + 1) % 128 = 0) :
    acc m c (n + 1) h = step (grid0.coords ⟨n + 1, h⟩) (tc m c ⟨n + 1, h⟩) (tw m c ⟨n + 1, h⟩) (th m c ⟨n + 1, h⟩) (acc m c n (Nat.lt_of_succ_lt h)) := by
  rw [acc, if_neg h0]

/-- The carried scratch after point n is the accumulator: by induction on the point, each case's stores read back. -/
theorem scratch_eq (c : Dev nD) : ∀ (n : ℕ) (h : n < cfg0.N), (outsAt0 m c n h).2 = acc m c n h
  | 0, h => by
    have h0 : (⟨0, h⟩ : Fin cfg0.N).val % 128 = 0 := Nat.zero_mod _
    have h1 : ¬(⟨0, h⟩ : Fin cfg0.N).val % 128 = 127 := by dsimp only; omega
    rw [outsAt0_A m c ⟨0, h⟩ h0 h1]
    dsimp only
    rw [acc]
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩)
  | n + 1, h => by
    by_cases h0 : (n + 1) % 128 = 0
    · have h1 : ¬(n + 1) % 128 = 127 := by omega
      rw [outsAt0_A m c ⟨n + 1, h⟩ h0 h1]
      dsimp only
      rw [acc_restart m c n h h0]
      exact sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩)
    · by_cases h1 : (n + 1) % 128 = 127
      · rw [outsAt0_C m c ⟨n + 1, h⟩ h0 h1]
        dsimp only
        rw [acc_continue m c n h h0]
        refine (sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2).trans ?_
        exact congrArg (step (grid0.coords ⟨n + 1, h⟩) (tc m c ⟨n + 1, h⟩) (tw m c ⟨n + 1, h⟩) (th m c ⟨n + 1, h⟩)) (scratch_eq c n (Nat.lt_of_succ_lt h))
      · rw [outsAt0_B m c ⟨n + 1, h⟩ h0 h1]
        dsimp only
        rw [acc_continue m c n h h0]
        refine (sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2).trans ?_
        exact congrArg (step (grid0.coords ⟨n + 1, h⟩) (tc m c ⟨n + 1, h⟩) (tw m c ⟨n + 1, h⟩) (th m c ⟨n + 1, h⟩)) (scratch_eq c n (Nat.lt_of_succ_lt h))

/-- At the last cache tile of a vocabulary tile the output row is the accumulator. -/
theorem out_eq (c : Dev nD) (t : Fin cfg0.N) (h1 : t.val % 128 = 127) : (outsAt0 m c t.val t.isLt).1 = acc m c t.val t.isLt := by
  obtain ⟨n, h⟩ := t
  cases n with
  | zero => exact absurd h1 (by dsimp only; omega)
  | succ n =>
    have h0 : ¬(n + 1) % 128 = 0 := by dsimp only at h1; omega
    rw [outsAt0_C m c ⟨n + 1, h⟩ h0 h1]
    dsimp only
    rw [acc_continue m c n h h0]
    refine (out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2).trans ?_
    exact congrArg (step (grid0.coords ⟨n + 1, h⟩) (tc m c ⟨n + 1, h⟩) (tw m c ⟨n + 1, h⟩) (th m c ⟨n + 1, h⟩)) (scratch_eq m c n (Nat.lt_of_succ_lt h))

end AnyValues

/-! ## Lane by lane, over the extended reals -/

variable (m : (ℓ : Loc nD τ sig) → Buf (Elt Ideal) ℓ)

/-- One step adds the point's partial sum to each lane. -/
theorem step_apply (i : grid0.Coords) (x0 : Vec Ideal S1024x1024 .f32) (x1 : Vec Ideal S1024x1 .i32)
    (x2 : Vec Ideal S512x1024 .f32) (a : Vec Ideal S1x512 .f32) (l : Fin 512) :
    step i x0 x1 x2 a (ix2 (0 : Fin 1) l) = a (ix2 (0 : Fin 1) l) + k0_pay3 (F := Ideal) i x0 x2 x1 (ix1 l) := by
  unfold step k0_pay1
  rw [shapeCast_self]
  exact congrArg (a (ix2 (0 : Fin 1) l) + ·) (shapeCast_a_1a_apply (k0_pay3 (F := Ideal) i x0 x2 x1) _ (0 : Fin 1) l)

/-- The restart value is zero in every lane. -/
theorem zero_apply (j : S1x512.Idx) : k0_pay2 (F := Ideal) j = 0 := by
  unfold k0_pay2
  rw [shapeCast_self]
  exact Ideal.ofBits_zero_f32

/-- What point k adds to lane l (zero past the grid's end, so that sums over ranges of points need no bound proofs). -/
def part (c : Dev nD) (k : ℕ) (l : Fin 512) : EReal :=
  if h : k < cfg0.N then
    k0_pay3 (F := Ideal) (grid0.coords ⟨k, h⟩) (tc m c ⟨k, h⟩) (th m c ⟨k, h⟩) (tw m c ⟨k, h⟩) (ix1 l)
  else 0

/-- After point n the accumulator's lane l is the sum of what the points 128·(n / 128) … n added. -/
theorem acc_apply (c : Dev nD) (l : Fin 512) : ∀ (n : ℕ) (h : n < cfg0.N),
    acc m c n h (ix2 (0 : Fin 1) l) = ∑ k ∈ Finset.Ico (n - n % 128) (n + 1), part m c k l
  | 0, h => by
    rw [acc, step_apply, zero_apply, zero_add]
    show _ = ∑ k ∈ Finset.Ico 0 1, part m c k l
    rw [Finset.sum_Ico_succ_top (Nat.zero_le 0), Finset.Ico_self, Finset.sum_empty, zero_add, part, dif_pos h]
  | n + 1, h => by
    by_cases h0 : (n + 1) % 128 = 0
    · rw [acc_restart m c n h h0, step_apply, zero_apply, zero_add, h0, Nat.sub_zero,
        Finset.sum_Ico_succ_top (Nat.le_refl _), Finset.Ico_self, Finset.sum_empty, zero_add, part, dif_pos h]
    · rw [acc_continue m c n h h0, step_apply, acc_apply c l n (Nat.lt_of_succ_lt h)]
      have e : n + 1 - (n + 1) % 128 = n - n % 128 := by omega
      rw [e, Finset.sum_Ico_succ_top (by omega : n - n % 128 ≤ n + 1), part, dif_pos h]

end Cert.KernelIdeal.Acc

end
-- ==== Proof.Spec.lean ====
/-
  What both programs compute, as functions of the three argument arrays over the extended reals.

  For a vocabulary row v the unnormalised cache probability is the sum, over the cache positions j whose word is v,
  of a weight of the distance between cache row j and vocabulary row v; the result is the log-softmax of that row of
  sums.  The two programs differ in how they write the weight: the reference takes the square root of the summed squared
  differences and divides by 32, the kernel expands the square into two squared norms and an inner product, clamps at
  zero, and multiplies by 1/32.  The sum itself the reference takes over all cache positions at once, the kernel tile by
  tile (128 tiles of 1024 positions).
-/
import Idealize.ShloMosaic.PureOps.Ideal
import Idealize.ShloMosaic.PureOps.Contract
import Idealize.ShloMosaic.Lib.ValueIdx

noncomputable section

namespace Cert.Spec

open Idealize.ShloMosaic Idealize.ShloMosaic.ValueIdx

/-- The vocabulary table, the cache table, the cache words, a row of per-vocabulary values. -/
abbrev SH : Shape := ⟨2, ![50257, 1024]⟩
abbrev SC : Shape := ⟨2, ![131072, 1024]⟩
abbrev SW : Shape := ⟨1, ![131072]⟩
abbrev SP : Shape := ⟨2, ![1, 50257]⟩
abbrev S0 : Shape := ⟨0, ![]⟩
abbrev S1 : Shape := ⟨1, ![1]⟩
abbrev S11 : Shape := ⟨2, ![1, 1]⟩

/-- The weight as the reference writes it: exp (‖c − h‖ / 32), the norm the square root of the summed squares. -/
def wRef (h c : Fin 1024 → EReal) : EReal :=
  Ideal.exp (Ideal.div (Ideal.sqrt (∑ d : Fin 1024, (c d - h d) * (c d - h d))) (Ideal.ofBits .f32 0x42000000#32))

/-- The weight as the kernel writes it: exp (√(max (‖c‖² + ‖h‖² − 2·⟨c, h⟩) 0) · (1/32)). -/
def wKer (h c : Fin 1024 → EReal) : EReal :=
  Ideal.exp (Ideal.sqrt (max ((∑ d : Fin 1024, c d * c d) + (∑ d : Fin 1024, h d * h d)
    - Ideal.ofBits .f32 0x40000000#32 * (∑ d : Fin 1024, c d * h d)) 0) * Ideal.ofBits .f32 0x3D000000#32)

/-- Row v of the vocabulary table, row j of the cache table. -/
abbrev hrow (H : SH.Idx → EReal) (v : Fin 50257) : Fin 1024 → EReal := fun d => H (ix2 v d)
abbrev crow (C : SC.Idx → EReal) (j : Fin 131072) : Fin 1024 → EReal := fun d => C (ix2 j d)

/-- The row of sums: entry v adds the weight of every cache position whose word is v (as a 32-bit word: a cache word
    that is no vocabulary index, negative ones included, matches no v and adds nothing). -/
def cacheP (wt : (Fin 1024 → EReal) → (Fin 1024 → EReal) → EReal) (H : SH.Idx → EReal) (C : SC.Idx → EReal)
    (W : SW.Idx → BitVec 32) : SP.Idx → EReal :=
  fun i => ∑ j : Fin 131072, if W (ix1 j) = BitVec.ofNat 32 (i 1).val
    then wt (hrow H ⟨(i 1).val, (i 1).isLt⟩) (crow C j) else 0

/-- The log-softmax of a row, operation by operation as both programs print it (the shape facts are arguments, so that
    each program's own witnesses fit). -/
def lsm (hred : SP.ReducesTo [1] S1) (h0 : 0 < S0.numel) (hb0 : S0.BroadcastsInDim S1 (![] : Fin 0 → Fin S1.rank))
    (hb1 : S1.BroadcastsInDim S11 (![0] : Fin 1 → Fin S11.rank))
    (hb2 : S11.BroadcastsInDim SP (![0, 1] : Fin 2 → Fin SP.rank)) (x : FVec Ideal SP .f32) : FVec Ideal SP .f32 :=
  let mx : FVec Ideal S1 .f32 := Host.reduce FloatOps.maximumf x (constant (F := Ideal) S0 .f32 0xFF800000#32) hred h0
  let mx' : FVec Ideal S1 .f32 := maximumf (broadcastInDim S1 ![] hb0 (constant (F := Ideal) S0 .f32 0xFF800000#32)) mx
  let sh : FVec Ideal SP .f32 := subf x (broadcastInDim SP ![0, 1] hb2 (broadcastInDim S11 ![0] hb1 mx'))
  let se : FVec Ideal S1 .f32 := Host.reduceAdd (Host.exp sh) (constant (F := Ideal) S0 .f32 0x00000000#32) hred h0
  subf sh (broadcastInDim SP ![0, 1] hb2 (Host.log (broadcastInDim S11 ![0] hb1 se)))

end Cert.Spec

end
-- ==== Proof.Blocks.lean ====
/-
  The tiles the body is handed at a grid point, read off the argument arrays.

  Grid point t is (a, b) = (t / 128, t % 128).  The cache tile is rows 1024·b … 1024·b + 1023 of the cache table, the
  word tile the same positions of the cache words (reshaped to a column before the call), and the vocabulary tile rows
  512·a … 512·a + 511 of the vocabulary table padded with zero rows up to 50688.
-/
import proofs.«415057_j28071906246843_1_alg».proof.Proof.Gen.KernelIdeal.Frame.Runs
import proofs.«415057_j28071906246843_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option Elab.async false

noncomputable section

namespace Cert.KernelIdeal.Blocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The three input tiles at grid point t, under their literal types. -/
abbrev ctile (c : Dev nD) (t : Fin cfg0.N) : Vec Ideal S1024x1024 .f32 := iblk m c 0 t
abbrev wtile (c : Dev nD) (t : Fin cfg0.N) : Vec Ideal S1024x1 .i32 := iblk m c 1 t
abbrev htile (c : Dev nD) (t : Fin cfg0.N) : Vec Ideal S512x1024 .f32 := iblk m c 2 t

/-- The argument arrays as launched. -/
abbrev argH (c : Dev nD) : Vec Ideal S50257x1024 .f32 := m ((c : Thread nD τ).loc main_arg0)
abbrev argC (c : Dev nD) : Vec Ideal S131072x1024 .f32 := m ((c : Thread nD τ).loc main_arg1)
abbrev argW (c : Dev nD) : Vec Ideal S131072 .i32 := m ((c : Thread nD τ).loc main_arg2)

/-! ## Which block each window takes at grid point t -/

/-- The cache window takes block (t % 128, 0): 1024 whole rows of the cache table. -/
theorem idx_cache : ∀ t : Fin cfg0.N, win0_0.index t (0 : Fin 2) = t.val % 128 ∧ win0_0.index t (1 : Fin 2) = 0 :=
  (by decide +kernel : ∀ t : Fin grid0.N, _)

/-- The word window takes block (t % 128, 0) of the column of words. -/
theorem idx_words : ∀ t : Fin cfg0.N, win0_1.index t (0 : Fin 2) = t.val % 128 ∧ win0_1.index t (1 : Fin 2) = 0 :=
  (by decide +kernel : ∀ t : Fin grid0.N, _)

/-- The vocabulary window takes block (t / 128, 0): 512 whole rows of the padded vocabulary table. -/
theorem idx_table : ∀ t : Fin cfg0.N, win0_2.index t (0 : Fin 2) = t.val / 128 ∧ win0_2.index t (1 : Fin 2) = 0 :=
  (by decide +kernel : ∀ t : Fin grid0.N, _)

/-! ## The two arrays written before the call -/

/-- The column of words the call reads is the launched words reshaped from [131072] to [131072, 1]. -/
theorem V_words (c : Dev nD) : (V m c main_v1 : S131072x1.Idx → BitVec 32)
    = shapeCast S131072x1 (m ((c : Thread nD τ).loc main_arg2)) shapeCasts_S131072_S131072x1 := by
  dsimp only [Gen.V, Gen.V0]
  simp only [Gen.hostOps0, Gen.hostOps0_1, Gen.hostOps0_2, List.flatten_cons, List.flatten_nil, List.append_nil,
    List.cons_append, List.nil_append]
  after_results
  rfl

/-- Entry (q, 0) of the column is word q: both sit at row-major position q. -/
theorem words_apply (x : Vec Ideal S131072 .i32) (q : Fin 131072) :
    shapeCast S131072x1 x shapeCasts_S131072_S131072x1 (ix2 q (0 : Fin 1)) = x (ix1 q) :=
  shapeCast_apply x shapeCasts_S131072_S131072x1 (ix2 q (0 : Fin 1)) (ix1 q) (by
    rw [Shape.rowMajor_val_two, Shape.rowMajor_val_one]
    show q.val = q.val * 1 + 0
    omega)

/-- The table the call reads is the launched vocabulary table with 431 rows appended, each entry the integer 0
    converted to a float. -/
theorem V_table (c : Dev nD) : (V m c main_v0 : S50688x1024.Idx → EReal)
    = pad S50688x1024 ![0, 0] ![431, 0] ![0, 0] (m ((c : Thread nD τ).loc main_arg0) : S50257x1024.Idx → EReal)
        (sitofp (F := Ideal) .f32 (constantI S_ 32 0#32) : S_.Idx → EReal)
        pads_S50257x1024_S50688x1024_04310_000 h_S_ := by
  dsimp only [Gen.V, Gen.V0]
  simp only [Gen.hostOps0, Gen.hostOps0_1, Gen.hostOps0_2, List.flatten_cons, List.flatten_nil, List.append_nil,
    List.cons_append, List.nil_append]
  after_results
  rfl

/-- The appended entries are 0: the integer 0 converts exactly. -/
theorem padval (i : S_.Idx) : (sitofp (F := Ideal) .f32 (constantI S_ 32 0#32) : S_.Idx → EReal) i = 0 := by
  show (((0#32 : BitVec 32).toInt : ℝ) : EReal) = 0
  rw [BitVec.toInt_zero, Int.cast_zero, EReal.coe_zero]

/-- Row q of the padded table is row q of the table when q < 50257 and the pad value otherwise (no low padding, no
    interior padding, and the columns are not padded). -/
theorem table_apply (x : Vec Ideal S50257x1024 .f32) (v : S_.Idx → EReal) (q : Fin 50688) (d : Fin 1024) :
    pad S50688x1024 ![0, 0] ![431, 0] ![0, 0] (x : S50257x1024.Idx → EReal) v
        pads_S50257x1024_S50688x1024_04310_000 h_S_ (ix2 q d)
      = if h : q.val < 50257 then x (ix2 ⟨q.val, h⟩ d) else v (Shape.Idx.first h_S_) := by
  by_cases h : q.val < 50257
  · rw [dif_pos h]
    exact pad_apply_of_inside _ _ _ _ v pads_S50257x1024_S50688x1024_04310_000 h_S_ (ix2 q d) (ix2 ⟨q.val, h⟩ d)
      (fun a => match a with
        | ⟨0, _⟩ => by show q.val = 0 + q.val * (0 + 1); omega
        | ⟨1, _⟩ => by show d.val = 0 + d.val * (0 + 1); omega)
  · rw [dif_neg h]
    exact pad_apply_of_not_inside _ _ _ _ v pads_S50257x1024_S50688x1024_04310_000 h_S_ (ix2 q d) (0 : Fin 2)
      (by show ¬(0 ≤ q.val ∧ (q.val - 0) % (0 + 1) = 0 ∧ (q.val - 0) / (0 + 1) < 50257); omega)

/-! ## The three tiles

A block's coordinate on an axis is its block index times the block's extent plus the coordinate inside the block. -/

theorem ctile_apply (c : Dev nD) (t : Fin cfg0.N) (r d : Fin 1024) :
    ctile m c t (ix2 r d) = argC m c (ix2 ⟨1024 * (t.val % 128) + r.val, by have := r.isLt; omega⟩ d) := by
  unfold ctile iblk
  rw [View.read_apply]
  show V m c main_arg1 _ = m (c.tc.loc main_arg1) _
  rw [V_main_arg1]
  congr 1
  funext a
  apply Fin.ext
  match a with
  | ⟨0, _⟩ => show win0_0.index t 0 * 1024 + 1 * r.val = 1024 * (t.val % 128) + r.val; rw [(idx_cache t).1]; omega
  | ⟨1, _⟩ => show win0_0.index t 1 * 1024 + 1 * d.val = d.val; rw [(idx_cache t).2]; omega

theorem wtile_apply (c : Dev nD) (t : Fin cfg0.N) (r : Fin 1024) :
    wtile m c t (ix2 r (0 : Fin 1)) = argW m c (ix1 ⟨1024 * (t.val % 128) + r.val, by have := r.isLt; omega⟩) := by
  unfold wtile iblk
  rw [View.read_apply]
  show V m c main_v1 _ = m (c.tc.loc main_arg2) _
  have hj : (((cfg0.win 1).blk t).view.emb (ix2 r (0 : Fin 1)) : S131072x1.Idx)
      = ix2 (⟨1024 * (t.val % 128) + r.val, by have := r.isLt; omega⟩ : Fin 131072) (0 : Fin 1) := by
    funext a
    apply Fin.ext
    match a with
    | ⟨0, _⟩ => show win0_1.index t 0 * 1024 + 1 * r.val = 1024 * (t.val % 128) + r.val; rw [(idx_words t).1]; omega
    | ⟨1, _⟩ => show win0_1.index t 1 * 1 + 1 * 0 = 0; rw [(idx_words t).2]
  rw [hj, V_words]
  exact words_apply _ _

theorem htile_apply (c : Dev nD) (t : Fin cfg0.N) (l : Fin 512) (d : Fin 1024) :
    htile m c t (ix2 l d) = if h : 512 * (t.val / 128) + l.val < 50257
      then argH m c (ix2 ⟨512 * (t.val / 128) + l.val, h⟩ d) else 0 := by
  have ht : t.val < 12672 := lt_of_lt_of_eq t.isLt N_0
  unfold htile iblk
  rw [View.read_apply]
  show V m c main_v0 _ = _
  have hj : (((cfg0.win 2).blk t).view.emb (ix2 l d) : S50688x1024.Idx)
      = ix2 (⟨512 * (t.val / 128) + l.val, by have := l.isLt; omega⟩ : Fin 50688) d := by
    funext a
    apply Fin.ext
    match a with
    | ⟨0, _⟩ => show win0_2.index t 0 * 512 + 1 * l.val = 512 * (t.val / 128) + l.val; rw [(idx_table t).1]; omega
    | ⟨1, _⟩ => show win0_2.index t 1 * 1024 + 1 * d.val = d.val; rw [(idx_table t).2]; omega
  rw [hj, V_table, table_apply, padval]

end Cert.KernelIdeal.Blocks

end
-- ==== Proof.BodySum.lean ====
/-
  What one grid point adds to the accumulator, entry by entry.

  At grid point (a, b) the body holds a tile of 1024 cache rows, their 1024 words, and a tile of 512 vocabulary rows.
  Lane l of what it adds is the sum over the 1024 cache rows r of the weight of (cache row r, vocabulary row l) where
  the word of row r is the vocabulary index 512·a + l, and zero elsewhere.
-/
import proofs.«415057_j28071906246843_1_alg».proof.Proof.Gen.KernelIdeal.Skeleton
import proofs.«415057_j28071906246843_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BodySum

open Idealize.ShloMosaic Idealize.ShloMosaic.ValueIdx Cert.KernelIdeal Cert.KernelIdeal.Gen Cert.Spec

/-! ## Layout operations at an index given by coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The three lane sums -/

/-- The sum over the rows of a 1024 × 512 array, at lane `l`. -/
theorem sum_rows (v : FVec Ideal S1024x512 .f32) (h : S1024x512.Reduces [0] S512) (hφ : FKind.Formats .f32)
    (hacc : (0x00000000#32 : BitVec 32) = 0x00000000#32) (l : Fin 512) :
    multiReduction .add [0] S512 v 0x00000000#32 h hφ hacc (ix1 l) = ∑ r : Fin 1024, v (ix2 r l) := by
  refine (Ideal.multiReduction_add_single v _ h hφ hacc (ix1 l)).trans ?_
  refine Finset.sum_congr rfl fun r _ => ?_
  exact congrArg v (funext fun a => Fin.ext (by match a with | ⟨0, _⟩ => rfl | ⟨1, _⟩ => rfl))

/-- The sum along a row of a 1024 × 1024 array, at row `r`. -/
theorem sum_cols_c (v : FVec Ideal S1024x1024 .f32) (h : S1024x1024.Reduces [1] S1024) (hφ : FKind.Formats .f32)
    (hacc : (0x00000000#32 : BitVec 32) = 0x00000000#32) (r : Fin 1024) :
    multiReduction .add [1] S1024 v 0x00000000#32 h hφ hacc (ix1 r) = ∑ d : Fin 1024, v (ix2 r d) := by
  refine (Ideal.multiReduction_add_single v _ h hφ hacc (ix1 r)).trans ?_
  refine Finset.sum_congr rfl fun d _ => ?_
  exact congrArg v (funext fun a => Fin.ext (by match a with | ⟨0, _⟩ => rfl | ⟨1, _⟩ => rfl))

/-- The sum along a row of a 512 × 1024 array, at row `l`. -/
theorem sum_cols_h (v : FVec Ideal S512x1024 .f32) (h : S512x1024.Reduces [1] S512) (hφ : FKind.Formats .f32)
    (hacc : (0x00000000#32 : BitVec 32) = 0x00000000#32) (l : Fin 512) :
    multiReduction .add [1] S512 v 0x00000000#32 h hφ hacc (ix1 l) = ∑ d : Fin 1024, v (ix2 l d) := by
  refine (Ideal.multiReduction_add_single v _ h hφ hacc (ix1 l)).trans ?_
  refine Finset.sum_congr rfl fun d _ => ?_
  exact congrArg v (funext fun a => Fin.ext (by match a with | ⟨0, _⟩ => rfl | ⟨1, _⟩ => rfl))

/-! ## Words -/

/-- A select on the comparison of two words for equality is the `if` on their equality. -/
theorem select_cmpi_eq {α : Type} (x y : BitVec 32) (A B : α) :
    Scalar.select (IntOp.cmpi .eq x y) A B = if x = y then A else B := by
  unfold Scalar.select IntOp.cmpi
  by_cases hxy : x = y
  · simp [hxy]
  · have hb : (x == y) = false := by simp [hxy]
    simp [hxy, hb]

/-- The word of lane `l` at grid row `n`: 512 · n + l. -/
theorem lane_word (n : Nat) (h : S1x512.Iotas .tc 32 [1]) (l : Fin 512) :
    addi (broadcast S1x512 (Scalar.muli (BitVec.ofNat 32 n) 512#32)) (iota .tc S1x512 32 [1] h) (ix2 (0 : Fin 1) l)
      = BitVec.ofNat 32 (512 * n + l.val) := by
  show IntOp.addi (IntOp.muli (BitVec.ofNat 32 n) 512#32) (iota .tc S1x512 32 [1] h (ix2 (0 : Fin 1) l)) = _
  rw [iota_single_apply]
  show BitVec.ofNat 32 n * 512#32 + BitVec.ofNat 32 l.val = _
  apply BitVec.eq_of_toNat_eq
  simp only [BitVec.toNat_add, BitVec.toNat_mul, BitVec.toNat_ofNat]
  omega

/-! ## The product of the two tiles -/

/-- The left operand's row is the result's row. -/
theorem lhs_dot_0 (j : S1024x512.Idx) (k : dot_S1024x1024_S512x1024_S1024x512_1_1_0_0_n_n.contr.Idx) :
    (dot_S1024x1024_S512x1024_S1024x512_1_1_0_0_n_n.lhsIdx j k (0 : Fin 2)).val = (j 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl

/-- The left operand's column is the contracted coordinate. -/
theorem lhs_dot_1 (j : S1024x512.Idx) (k : dot_S1024x1024_S512x1024_S1024x512_1_1_0_0_n_n.contr.Idx) :
    (dot_S1024x1024_S512x1024_S1024x512_1_1_0_0_n_n.lhsIdx j k (1 : Fin 2)).val = (k ⟨0, by decide⟩).val :=
  dot_S1024x1024_S512x1024_S1024x512_1_1_0_0_n_n.lhsIdx_val_of_single rfl j k

/-- The right operand's row is the result's column. -/
theorem rhs_dot_0 (j : S1024x512.Idx) (k : dot_S1024x1024_S512x1024_S1024x512_1_1_0_0_n_n.contr.Idx) :
    (dot_S1024x1024_S512x1024_S1024x512_1_1_0_0_n_n.rhsIdx j k (0 : Fin 2)).val = (j 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl

/-- The right operand's column is the contracted coordinate. -/
theorem rhs_dot_1 (j : S1024x512.Idx) (k : dot_S1024x1024_S512x1024_S1024x512_1_1_0_0_n_n.contr.Idx) :
    (dot_S1024x1024_S512x1024_S1024x512_1_1_0_0_n_n.rhsIdx j k (1 : Fin 2)).val = (k ⟨0, by decide⟩).val :=
  dot_S1024x1024_S512x1024_S1024x512_1_1_0_0_n_n.rhsIdx_val_of_single rfl j k

/-- The product of the cache tile and the vocabulary tile, contracted along the 1024 features, at (r, l). -/
theorem matmul_at {φ₁ φ₂ : FTy} (a : FVec Ideal S1024x1024 φ₁) (b : FVec Ideal S512x1024 φ₂) (r : Fin 1024) (l : Fin 512) :
    matmul dot_S1024x1024_S512x1024_S1024x512_1_1_0_0_n_n none a b (constant (F := Ideal) S1024x512 .f32 0x00000000#32) (ix2 r l)
      = ∑ d : Fin 1024, a (ix2 r d) * b (ix2 l d) := by
  show FloatOps.matmul dot_S1024x1024_S512x1024_S1024x512_1_1_0_0_n_n none a b (constant (F := Ideal) S1024x512 .f32 0x00000000#32) (ix2 r l) = _
  rw [Ideal.matmul_constant_zero_apply, ← Equiv.sum_comp (contrEquiv1 dot_S1024x1024_S512x1024_S1024x512_1_1_0_0_n_n 1024 rfl rfl).symm]
  refine Finset.sum_congr rfl fun d _ => ?_
  have hk := contrEquiv1_symm_val dot_S1024x1024_S512x1024_S1024x512_1_1_0_0_n_n 1024 rfl rfl d
  have hl : dot_S1024x1024_S512x1024_S1024x512_1_1_0_0_n_n.lhsIdx (ix2 r l) ((contrEquiv1 dot_S1024x1024_S512x1024_S1024x512_1_1_0_0_n_n 1024 rfl rfl).symm d) = ix2 r d := by
    funext ax; apply Fin.ext
    match ax with
    | ⟨0, _⟩ => exact lhs_dot_0 _ _
    | ⟨1, _⟩ => exact (lhs_dot_1 _ _).trans hk
  have hr : dot_S1024x1024_S512x1024_S1024x512_1_1_0_0_n_n.rhsIdx (ix2 r l) ((contrEquiv1 dot_S1024x1024_S512x1024_S1024x512_1_1_0_0_n_n 1024 rfl rfl).symm d) = ix2 l d := by
    funext ax; apply Fin.ext
    match ax with
    | ⟨0, _⟩ => exact rhs_dot_0 _ _
    | ⟨1, _⟩ => exact (rhs_dot_1 _ _).trans hk
  rw [hl, hr]

/-! ## The pointwise operations the library does not name, at an index -/

/-- A square root at an index is the square root of the element. -/
theorem sqrt_at {s : Shape} {φ : FTy} (x : FVec Ideal s φ) (j : s.Idx) : sqrt x j = Ideal.sqrt (x j) := rfl
/-- An exponential at an index is the exponential of the element. -/
theorem exp_at {s : Shape} {φ : FTy} (x : FVec Ideal s φ) (j : s.Idx) : exp x j = Ideal.exp (x j) := rfl
/-- A comparison of words at an index compares the elements. -/
theorem cmpi_at {s : Shape} {w : ℕ} (p : CmpIPredicate) (x y : IVec s w) (j : s.Idx) :
    cmpi p x y j = IntOp.cmpi p (x j) (y j) := rfl

/-- Lane l of the body's partial sums at grid point i over a cache tile `xc`, its words `xw` and a vocabulary tile `xh`. -/
theorem partial_apply (i : grid0.Coords) (xc : Vec Ideal S1024x1024 .f32) (xh : Vec Ideal S512x1024 .f32)
    (xw : Vec Ideal S1024x1 .i32) (l : Fin 512) :
    k0_pay3 (F := Ideal) i xc xh xw (ix1 l)
      = ∑ r : Fin 1024, if xw (ix2 r (0 : Fin 1)) = BitVec.ofNat 32 (512 * (i 0).val + l.val)
          then wKer (fun d => xh (ix2 l d)) (fun d => xc (ix2 r d)) else 0 := by
  unfold k0_pay3
  -- the last operation adds the 1024 rows of the selected weights, lane by lane
  refine (sum_rows _ _ _ _ l).trans ?_
  refine Finset.sum_congr rfl fun r _ => ?_
  -- entry (r, l): the select on the comparison of two words is the `if` on their equality; every pointwise
  -- operation reads its operands' entries; a column or a row spread over the tile reads its one entry; the bf16
  -- copies of the tiles are the tiles; the product of the tiles is the inner product of row r and row l
  simp only [select_apply, cmpi_at, select_cmpi_eq, exp_at, sqrt_at, mulf_apply, addf_apply, subf_apply, maximumf_apply,
    broadcast_apply, broadcastTo_a1_ab_apply, broadcastTo_1b_ab_apply, shapeCast_a_a1_apply,
    shapeCast_self, matmul_at, truncf_apply, Ideal.ofBits_def, Ideal.ofBits_zero_f32]
  -- the word of lane l is 512 · (i 0) + l; the squared norms of the vocabulary rows, a column turned into a row,
  -- read at l; the two squared norms are sums over the 1024 features
  rw [lane_word, transpose_ix2_apply, shapeCast_a_a1_apply, sum_cols_c, sum_cols_h]
  simp only [mulf_apply]
  rfl

end Cert.KernelIdeal.BodySum

end
-- ==== Proof.WeightLaw.lean ====
/-
  The two ways of writing the weight agree on real rows, and the tiled sum is the whole sum.

  For real vectors c and h, ‖c‖² + ‖h‖² − 2⟨c, h⟩ is ‖c − h‖² (expand the square under the sum), which is not negative,
  so the clamp at zero does nothing; and multiplying by 1/32 is dividing by 32.
-/
import proofs.«415057_j28071906246843_1_alg».proof.Proof.Spec

noncomputable section

namespace Cert.Spec

open Idealize.ShloMosaic Idealize.ShloMosaic.ValueIdx

/-! ### The three constants the weights spell -/

/-- The pattern of `2.0` denotes the real 2. -/
theorem ofBits_two : Ideal.ofBits .f32 0x40000000#32 = ((2 : ℝ) : EReal) := by
  simp [Ideal.ofBits, Ideal.ieee, -EReal.coe_mul]; norm_num

/-- The pattern of `0.03125` denotes the real 1/32. -/
theorem ofBits_thirtysecond : Ideal.ofBits .f32 0x3D000000#32 = ((1 / 32 : ℝ) : EReal) := by
  simp [Ideal.ofBits, Ideal.ieee, -EReal.coe_mul]; norm_num

/-- The pattern of `32.0` denotes the real 32. -/
theorem ofBits_thirtytwo : Ideal.ofBits .f32 0x42000000#32 = ((32 : ℝ) : EReal) := by
  simp [Ideal.ofBits, Ideal.ieee, -EReal.coe_mul]; norm_num

/-! ### Real sums inside the extended reals -/

/-- The inclusion of the reals in the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals, ‖c‖² + ‖h‖² − 2⟨c, h⟩ = ‖c − h‖²: expand the square term by term. -/
theorem real_expand (hr cr : Fin 1024 → ℝ) :
    (∑ d, cr d * cr d) + (∑ d, hr d * hr d) - 2 * (∑ d, cr d * hr d) = ∑ d, (cr d - hr d) * (cr d - hr d) := by
  rw [Finset.mul_sum, ← Finset.sum_add_distrib, ← Finset.sum_sub_distrib]
  exact Finset.sum_congr rfl (fun d _ => by ring)

/-- On rows of real numbers the kernel's weight is the reference's. -/
theorem wKer_eq_wRef (h c : Fin 1024 → EReal) (hh : ∀ d, ∃ r : ℝ, h d = (r : EReal)) (hc : ∀ d, ∃ r : ℝ, c d = (r : EReal)) :
    wKer h c = wRef h c := by
  choose hr hhr using hh
  choose cr hcr using hc
  obtain rfl : h = fun d => (hr d : EReal) := funext hhr
  obtain rfl : c = fun d => (cr d : EReal) := funext hcr
  -- the reference's summed squares are the real ‖c − h‖²
  have hR : (∑ d : Fin 1024, ((cr d : EReal) - (hr d : EReal)) * ((cr d : EReal) - (hr d : EReal)))
      = ((∑ d, (cr d - hr d) * (cr d - hr d) : ℝ) : EReal) := by
    rw [coe_finset_sum]
    exact Finset.sum_congr rfl (fun d _ => by rw [EReal.coe_mul, EReal.coe_sub])
  -- and so is the kernel's expanded form
  have hK : (∑ d : Fin 1024, (cr d : EReal) * (cr d : EReal)) + (∑ d : Fin 1024, (hr d : EReal) * (hr d : EReal))
      - ((2 : ℝ) : EReal) * (∑ d : Fin 1024, (cr d : EReal) * (hr d : EReal))
      = ((∑ d, (cr d - hr d) * (cr d - hr d) : ℝ) : EReal) := by
    rw [← real_expand, EReal.coe_sub, EReal.coe_add, EReal.coe_mul, coe_finset_sum, coe_finset_sum, coe_finset_sum]
    simp only [EReal.coe_mul]
  -- a sum of squares is not negative, so the clamp at zero does nothing
  have hnn : (0 : EReal) ≤ ((∑ d, (cr d - hr d) * (cr d - hr d) : ℝ) : EReal) := by
    exact_mod_cast Finset.sum_nonneg (fun d _ => mul_self_nonneg (cr d - hr d))
  unfold wKer wRef
  rw [ofBits_two, ofBits_thirtysecond, ofBits_thirtytwo, Ideal.div_coe (by norm_num : (32 : ℝ) ≠ 0), hR, hK,
    max_eq_left hnn]

/-- So on tables of real numbers the two rows of sums agree. -/
theorem cacheP_wKer_eq_wRef (H : SH.Idx → EReal) (C : SC.Idx → EReal) (W : SW.Idx → BitVec 32)
    (hH : ∀ i, ∃ r : ℝ, H i = (r : EReal)) (hC : ∀ i, ∃ r : ℝ, C i = (r : EReal)) :
    cacheP wKer H C W = cacheP wRef H C W := by
  funext i
  unfold cacheP
  refine Finset.sum_congr rfl (fun j _ => ?_)
  split_ifs with hw
  · exact wKer_eq_wRef _ _ (fun d => hH _) (fun d => hC _)
  · rfl

/-! ### Tiles -/

/-- Position r of tile b, as a cache position. -/
def tileIdx (b : Fin 128) (r : Fin 1024) : Fin 131072 :=
  ⟨1024 * b.val + r.val, by have := b.isLt; have := r.isLt; omega⟩

/-- Tile and position within the tile, against the cache position: a bijection (division with remainder by 1024). -/
def tileEquiv : Fin 128 × Fin 1024 ≃ Fin 131072 :=
  finProdFinEquiv.trans (finCongr (by norm_num))

theorem tileEquiv_apply (x : Fin 128 × Fin 1024) : tileEquiv x = tileIdx x.1 x.2 := by
  apply Fin.ext
  simp only [tileEquiv, tileIdx, Equiv.trans_apply, finProdFinEquiv_apply_val, finCongr_apply, Fin.val_cast]
  exact Nat.add_comm _ _

/-- A sum over the 131072 cache positions taken tile by tile: 128 tiles of 1024 positions, position 1024·b + r in tile b. -/
theorem sum_tiles (f : Fin 131072 → EReal) :
    (∑ b ∈ Finset.range 128, ∑ r : Fin 1024, (if hb : b < 128 then f ⟨1024 * b + r.val, by have := r.isLt; omega⟩ else 0))
      = ∑ j : Fin 131072, f j := by
  calc (∑ b ∈ Finset.range 128, ∑ r : Fin 1024,
          (if hb : b < 128 then f ⟨1024 * b + r.val, by have := r.isLt; omega⟩ else 0))
      = ∑ b : Fin 128, ∑ r : Fin 1024, f (tileIdx b r) := by
        rw [Finset.sum_range]
        refine Finset.sum_congr rfl (fun b _ => Finset.sum_congr rfl (fun r _ => ?_))
        rw [dif_pos b.isLt]
        rfl
    _ = ∑ x : Fin 128 × Fin 1024, f (tileIdx x.1 x.2) :=
        (Fintype.sum_prod_type' (fun b r => f (tileIdx b r))).symm
    _ = ∑ j : Fin 131072, f j :=
        Fintype.sum_equiv tileEquiv _ _ (fun x => by rw [tileEquiv_apply])

end Cert.Spec

end
-- ==== Proof.Final.lean ====
/-
  The row the kernel's region leaves, and what @main returns.

  Column v = 512·a + l of the output row is written once, at the last cache tile of vocabulary tile a, with the
  accumulator's lane l: the sum over the 128 cache tiles b and the 1024 rows r of each tile of the weight of
  (cache position 1024·b + r, vocabulary row v) where that position's word is v.  Read over all 131072 positions at once
  this is the row of sums of the specification (with the kernel's way of writing the weight); the columns past 50257,
  which belong to the zero rows the vocabulary table was padded with, are sliced off before the log-softmax.
-/
import proofs.«415057_j28071906246843_1_alg».proof.Proof.Acc
import proofs.«415057_j28071906246843_1_alg».proof.Proof.Blocks
import proofs.«415057_j28071906246843_1_alg».proof.Proof.BodySum
import proofs.«415057_j28071906246843_1_alg».proof.Proof.WeightLaw
import Idealize.ShloMosaic.Lib.Pipeline.Value

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Acc Cert.KernelIdeal.Blocks Cert.Spec

/-! ## One column's sum, tile by tile -/

/-- Row v of the vocabulary table padded with zero rows. -/
def hpad (H : SH.Idx → EReal) (v : ℕ) : Fin 1024 → EReal := fun d => if h : v < 50257 then H (ix2 ⟨v, h⟩ d) else 0

/-- What cache position j adds to column v. -/
def term (H : SH.Idx → EReal) (C : SC.Idx → EReal) (W : SW.Idx → BitVec 32) (v : ℕ) (j : Fin 131072) : EReal :=
  if W (ix1 j) = BitVec.ofNat 32 v then wKer (hpad H v) (crow C j) else 0

theorem term_congr (H : SH.Idx → EReal) (C : SC.Idx → EReal) (W : SW.Idx → BitVec 32) {v v' : ℕ} {j j' : Fin 131072}
    (hv : v = v') (hj : j.val = j'.val) : term H C W v j = term H C W v' j' := by
  subst hv; obtain rfl : j = j' := Fin.ext hj; rfl

/-- Column v, summed tile by tile. -/
def colSum (H : SH.Idx → EReal) (C : SC.Idx → EReal) (W : SW.Idx → BitVec 32) (v : ℕ) : EReal :=
  ∑ b ∈ Finset.range 128, ∑ r : Fin 1024,
    (if hb : b < 128 then term H C W v ⟨1024 * b + r.val, by have := r.isLt; omega⟩ else 0)

/-- For a vocabulary index the tiled column sum is the specification's entry. -/
theorem colSum_eq (H : SH.Idx → EReal) (C : SC.Idx → EReal) (W : SW.Idx → BitVec 32) (v : Fin 50257) :
    colSum H C W v.val = cacheP wKer H C W (ix2 (0 : Fin 1) v) := by
  unfold colSum
  rw [sum_tiles (fun j => term H C W v.val j)]
  unfold cacheP
  refine Finset.sum_congr rfl fun j _ => ?_
  unfold term
  have e : hpad H v.val = hrow H v := funext fun d => dif_pos v.isLt
  rw [e]

variable (m : (ℓ : Loc nD τ sig) → Buf (Elt Ideal) ℓ)

/-- The grid's first coordinate is the vocabulary tile. -/
theorem coord0 : ∀ t : Fin cfg0.N, ((grid0.coords t) 0).val = t.val / 128 :=
  (by decide +kernel : ∀ t : Fin grid0.N, ((grid0.coords t) 0).val = t.val / 128)

/-- What point k adds to lane l, in terms of the argument arrays. -/
theorem part_eq (c : Dev nD) (k : ℕ) (hk : k < cfg0.N) (l : Fin 512) :
    part m c k l = ∑ r : Fin 1024, term (argH m c) (argC m c) (argW m c) (512 * (k / 128) + l.val)
      ⟨1024 * (k % 128) + r.val, by have := r.isLt; omega⟩ := by
  unfold part
  rw [dif_pos hk, BodySum.partial_apply]
  refine Finset.sum_congr rfl fun r _ => ?_
  unfold term
  rw [coord0 ⟨k, hk⟩]
  have ew : tw m c ⟨k, hk⟩ (ix2 r (0 : Fin 1)) = argW m c (ix1 ⟨1024 * (k % 128) + r.val, by have := r.isLt; omega⟩) :=
    wtile_apply m c ⟨k, hk⟩ r
  have eh : (fun d => th m c ⟨k, hk⟩ (ix2 l d)) = hpad (argH m c) (512 * (k / 128) + l.val) :=
    funext fun d => htile_apply m c ⟨k, hk⟩ l d
  have ec : ∀ r : Fin 1024, (fun d => tc m c ⟨k, hk⟩ (ix2 r d))
      = crow (argC m c) ⟨1024 * (k % 128) + r.val, by have := r.isLt; omega⟩ :=
    fun r => funext fun d => ctile_apply m c ⟨k, hk⟩ r d
  rw [ew, eh, ec r]

/-- At the last cache tile of vocabulary tile a = t / 128 the accumulator's lane l is column 512·a + l. -/
theorem acc_last (c : Dev nD) (t : Fin cfg0.N) (h1 : t.val % 128 = 127) (l : Fin 512) :
    acc m c t.val t.isLt (ix2 (0 : Fin 1) l) = colSum (argH m c) (argC m c) (argW m c) (512 * (t.val / 128) + l.val) := by
  have hN : cfg0.N = 12672 := N_0
  have ht : t.val < 12672 := lt_of_lt_of_eq t.isLt hN
  rw [acc_apply m c l t.val t.isLt, h1, Finset.sum_Ico_eq_sum_range]
  have e : t.val + 1 - (t.val - 127) = 128 := by omega
  rw [e]
  unfold colSum
  refine Finset.sum_congr rfl fun b hb => ?_
  have hb' : b < 128 := Finset.mem_range.mp hb
  have hk : t.val - 127 + b < cfg0.N := lt_of_lt_of_eq (by omega : t.val - 127 + b < 12672) hN.symm
  rw [part_eq m c (t.val - 127 + b) hk l]
  refine Finset.sum_congr rfl fun r _ => ?_
  rw [dif_pos hb']
  exact term_congr _ _ _ (by omega) (by show 1024 * ((t.val - 127 + b) % 128) + r.val = 1024 * b + r.val; omega)

/-! ## The output row after the run -/

/-- The row the region leaves: column v is the tiled column sum. -/
def rowK (c : Dev nD) : Buf (Elt Ideal) ((c : Thread nD τ).loc main_v2) :=
  fun i => colSum (argH m c) (argC m c) (argW m c) (i 1).val

/-- The output window's block at point t is block (0, t / 128) of the row. -/
theorem idx_out : ∀ t : Fin cfg0.N, win0_3.index t (0 : Fin 2) = 0 ∧ win0_3.index t (1 : Fin 2) = t.val / 128 :=
  (by decide +kernel : ∀ t : Fin grid0.N, win0_3.index t (0 : Fin 2) = 0 ∧ win0_3.index t (1 : Fin 2) = t.val / 128)

/-- Every entry of the accumulator at the last cache tile of a vocabulary tile. -/
theorem acc_last' (c : Dev nD) (t : Fin cfg0.N) (h1 : t.val % 128 = 127) (y : S1x512.Idx) :
    acc m c t.val t.isLt y = colSum (argH m c) (argC m c) (argW m c) (512 * (t.val / 128) + (y 1).val) := by
  obtain ⟨u, l, rfl⟩ : ∃ (u : Fin 1) (l : Fin 512), y = ix2 u l := ⟨y 0, y 1, eq_ix2 y⟩
  obtain rfl : u = 0 := Subsingleton.elim _ _
  exact acc_last m c t h1 l

/-- What a writing point writes back is its block of the row. -/
theorem flushed_eq (c : Dev nD) (t : Fin cfg0.N) (hf : (cfg0.win 3).flush t = true) :
    (dats m 0 c).flushed 3 t = ((cfg0.win 3).blk t).view.read (Elt Ideal) (rowK m c) := by
  have h1 : t.val % 128 = 127 := (flush0_3 t).mp hf
  show (cfg0.win 3).cut (grid0.coords t) ((dats m 0 c).after 3 t) = _
  rw [after0_3, out_eq m c t h1]
  obtain ⟨e0, e1⟩ := idx_out t
  funext j
  refine (acc_last' m c t h1 j).trans ?_
  show colSum _ _ _ (512 * (t.val / 128) + (j 1).val) = colSum _ _ _ (win0_3.index t (1 : Fin 2) * 512 + 1 * (j 1).val)
  rw [e1]
  exact congrArg (colSum _ _ _) (by omega)

/-- An index of the row is in point t's block iff each coordinate is in the block's range. -/
theorem mem_blk (t : Fin cfg0.N) (i : S1x50688.Idx) :
    i ∈ ((cfg0.win 3).blk t).view.set ↔ ∀ a : Fin 2, win0_3.index t a * S1x512.size a ≤ (i a).val ∧ (i a).val < win0_3.index t a * S1x512.size a + S1x512.size a := by
  show i ∈ ((View.whole main_v2).slice (win0_3.rect t)).set ↔ _
  rw [View.set_slice_whole, Rect.mem_set_unit]
  exact Iff.rfl

/-- Every column is written: column v by the last cache tile of vocabulary tile v / 512. -/
theorem cover (i : S1x50688.Idx) : ∃ t : Fin cfg0.N, (cfg0.win 3).flush t = true ∧ i ∈ ((cfg0.win 3).blk t).view.set := by
  have hi0 : (i 0).val < 1 := (i 0).isLt
  have hi1 : (i 1).val < 50688 := (i 1).isLt
  have hN : cfg0.N = 12672 := N_0
  have ht : 128 * ((i 1).val / 512) + 127 < cfg0.N := lt_of_lt_of_eq (by omega : 128 * ((i 1).val / 512) + 127 < 12672) hN.symm
  refine ⟨⟨128 * ((i 1).val / 512) + 127, ht⟩, (flush0_3 _).mpr (by show (128 * ((i 1).val / 512) + 127) % 128 = 127; omega), ?_⟩
  rw [mem_blk]
  obtain ⟨e0, e1⟩ := idx_out ⟨128 * ((i 1).val / 512) + 127, ht⟩
  intro a
  match a with
  | ⟨0, _⟩ =>
    show win0_3.index ⟨128 * ((i 1).val / 512) + 127, ht⟩ (0 : Fin 2) * 1 ≤ (i 0).val ∧ (i 0).val < win0_3.index ⟨128 * ((i 1).val / 512) + 127, ht⟩ (0 : Fin 2) * 1 + 1
    rw [e0]; omega
  | ⟨1, _⟩ =>
    show win0_3.index ⟨128 * ((i 1).val / 512) + 127, ht⟩ (1 : Fin 2) * 512 ≤ (i 1).val ∧ (i 1).val < win0_3.index ⟨128 * ((i 1).val / 512) + 127, ht⟩ (1 : Fin 2) * 512 + 512
    rw [e1]
    show (128 * ((i 1).val / 512) + 127) / 128 * 512 ≤ (i 1).val ∧ (i 1).val < (128 * ((i 1).val / 512) + 127) / 128 * 512 + 512
    omega

/-- So after the run the region's output array is that row. -/
theorem final_row (c : Dev nD) : (dats m 0 c).arrAt 3 cfg0.N = rowK m c :=
  (dats m 0 c).arrAt_eq_of_cover 3 (rowK m c) (flushed_eq m c) (cover)

theorem rowK_apply (c : Dev nD) (i : S1x50688.Idx) :
    rowK m c i = colSum (argH m c) (argC m c) (argW m c) (i 1).val := rfl

/-- Its first 50257 columns are the specification's row of sums, with the kernel's way of writing the weight. -/
theorem slice_row (c : Dev nD) :
    extractStridedSlice S1x50257 ![0, 0] (rowK m c) slices_S1x50688_S1x50257_0_0
      = cacheP wKer (argH m c) (argC m c) (argW m c) := by
  funext i
  have hi0 : (i 0).val < 1 := (i 0).isLt
  have hi : (i 1).val < 50257 := (i 1).isLt
  have h1 : extractStridedSlice S1x50257 ![0, 0] (rowK m c) slices_S1x50688_S1x50257_0_0 i
      = rowK m c (ix2 (0 : Fin 1) (⟨(i 1).val, by omega⟩ : Fin 50688)) :=
    extractStridedSlice_apply _ _ _ i _ (fun a => by
      match a with
      | ⟨0, _⟩ => show (0 : ℕ) = 0 + (i 0).val; omega
      | ⟨1, _⟩ => show (i 1).val = 0 + (i 1).val; omega)
  rw [h1, rowK_apply]
  show colSum _ _ _ (i 1).val = _
  rw [colSum_eq _ _ _ ⟨(i 1).val, hi⟩]
  refine congrArg (cacheP wKer _ _ _) (funext fun a => ?_)
  match a with
  | ⟨0, _⟩ => exact Fin.ext (by show 0 = (i 0).val; omega)
  | ⟨1, _⟩ => rfl

end Cert.KernelIdeal.Final

end
-- ==== Proof.Tail.lean ====
/-
  The host operations after the region: the slice that drops the padded columns, then the log-softmax.
  Over any contents of the region's output row, what @main returns is the log-softmax of that row's first 50257 columns.
-/
import proofs.«415057_j28071906246843_1_alg».proof.Proof.Gen.KernelIdeal.Launch
import proofs.«415057_j28071906246843_1_alg».proof.Proof.Spec
import Idealize.ShloMosaic.Lib.StableHlo.Run
import Idealize.ShloMosaic.Lib.Pipeline.Frame

noncomputable section

namespace Cert.KernelIdeal.Tail

open Idealize.ShloMosaic Idealize.ShloMosaic.TcCoe Idealize.SL.Sem Idealize.ShloMosaic.StableHlo
open Cert.KernelIdeal Cert.KernelIdeal.Gen

variable {F : FTy → Type} [FloatOps F]

/-- The log-softmax's fifteen operations, over the buffers themselves. -/
abbrev tailOps : List (HloOp τ sig (Elt F)) :=
  [ StableHlo.nullary main_call1_cst (constant S_ .f32 0xFF800000#32 : (⟨S_, .f32⟩ : BufTy).Contents (Elt F)),
    StableHlo.binary main_v3 main_call1_cst main_call1_v0 (fun x v => Host.reduce FloatOps.maximumf x v reducesTo_S1x50257_S1_d1 h_S_ : (⟨S1x50257, .f32⟩ : BufTy).Contents (Elt F) → (⟨S_, .f32⟩ : BufTy).Contents (Elt F) → (⟨S1, .f32⟩ : BufTy).Contents (Elt F)),
    StableHlo.nullary main_call1_cst_0 (constant S_ .f32 0xFF800000#32 : (⟨S_, .f32⟩ : BufTy).Contents (Elt F)),
    StableHlo.unary main_call1_cst_0 main_call1_v1 (broadcastInDim S1 ![] bcast_S_S1 : (⟨S_, .f32⟩ : BufTy).Contents (Elt F) → (⟨S1, .f32⟩ : BufTy).Contents (Elt F)),
    StableHlo.binary main_call1_v1 main_call1_v0 main_call1_v2 (maximumf : (⟨S1, .f32⟩ : BufTy).Contents (Elt F) → (⟨S1, .f32⟩ : BufTy).Contents (Elt F) → (⟨S1, .f32⟩ : BufTy).Contents (Elt F)),
    StableHlo.unary main_call1_v2 main_call1_v3 (broadcastInDim S1x1 ![0] bcast_S1_S1x1_0 : (⟨S1, .f32⟩ : BufTy).Contents (Elt F) → (⟨S1x1, .f32⟩ : BufTy).Contents (Elt F)),
    StableHlo.unary main_call1_v3 main_call1_v4 (broadcastInDim S1x50257 ![0, 1] bcast_S1x1_S1x50257_0_1 : (⟨S1x1, .f32⟩ : BufTy).Contents (Elt F) → (⟨S1x50257, .f32⟩ : BufTy).Contents (Elt F)),
    StableHlo.binary main_v3 main_call1_v4 main_call1_v5 (subf : (⟨S1x50257, .f32⟩ : BufTy).Contents (Elt F) → (⟨S1x50257, .f32⟩ : BufTy).Contents (Elt F) → (⟨S1x50257, .f32⟩ : BufTy).Contents (Elt F)),
    StableHlo.unary main_call1_v5 main_call1_v6 (Host.exp : (⟨S1x50257, .f32⟩ : BufTy).Contents (Elt F) → (⟨S1x50257, .f32⟩ : BufTy).Contents (Elt F)),
    StableHlo.nullary main_call1_cst_1 (constant S_ .f32 0x00000000#32 : (⟨S_, .f32⟩ : BufTy).Contents (Elt F)),
    StableHlo.binary main_call1_v6 main_call1_cst_1 main_call1_v7 (fun x v => Host.reduceAdd x v reducesTo_S1x50257_S1_d1 h_S_ : (⟨S1x50257, .f32⟩ : BufTy).Contents (Elt F) → (⟨S_, .f32⟩ : BufTy).Contents (Elt F) → (⟨S1, .f32⟩ : BufTy).Contents (Elt F)),
    StableHlo.unary main_call1_v7 main_call1_v8 (broadcastInDim S1x1 ![0] bcast_S1_S1x1_0 : (⟨S1, .f32⟩ : BufTy).Contents (Elt F) → (⟨S1x1, .f32⟩ : BufTy).Contents (Elt F)),
    StableHlo.unary main_call1_v8 main_call1_v9 (Host.log : (⟨S1x1, .f32⟩ : BufTy).Contents (Elt F) → (⟨S1x1, .f32⟩ : BufTy).Contents (Elt F)),
    StableHlo.unary main_call1_v9 main_call1_v10 (broadcastInDim S1x50257 ![0, 1] bcast_S1x1_S1x50257_0_1 : (⟨S1x1, .f32⟩ : BufTy).Contents (Elt F) → (⟨S1x50257, .f32⟩ : BufTy).Contents (Elt F)),
    StableHlo.binary main_call1_v5 main_call1_v10 main_v4 (subf : (⟨S1x50257, .f32⟩ : BufTy).Contents (Elt F) → (⟨S1x50257, .f32⟩ : BufTy).Contents (Elt F) → (⟨S1x50257, .f32⟩ : BufTy).Contents (Elt F)) ]

set_option maxRecDepth 200000 in
theorem tailOps_eq : (hostOps1_1 : List (HloOp τ sig (Elt F))) = tailOps := rfl

/-- The log-softmax of a row, as the fifteen operations compose it. -/
def lsmOf (x : (⟨S1x50257, .f32⟩ : BufTy).Contents (Elt F)) : (⟨S1x50257, .f32⟩ : BufTy).Contents (Elt F) :=
  subf (subf x (broadcastInDim S1x50257 ![0, 1] bcast_S1x1_S1x50257_0_1 (broadcastInDim S1x1 ![0] bcast_S1_S1x1_0 (maximumf (broadcastInDim S1 ![] bcast_S_S1 (constant S_ .f32 0xFF800000#32)) (Host.reduce FloatOps.maximumf x (constant S_ .f32 0xFF800000#32) reducesTo_S1x50257_S1_d1 h_S_))))) (broadcastInDim S1x50257 ![0, 1] bcast_S1x1_S1x50257_0_1 (Host.log (broadcastInDim S1x1 ![0] bcast_S1_S1x1_0 (Host.reduceAdd (Host.exp (subf x (broadcastInDim S1x50257 ![0, 1] bcast_S1x1_S1x50257_0_1 (broadcastInDim S1x1 ![0] bcast_S1_S1x1_0 (maximumf (broadcastInDim S1 ![] bcast_S_S1 (constant S_ .f32 0xFF800000#32)) (Host.reduce FloatOps.maximumf x (constant S_ .f32 0xFF800000#32) reducesTo_S1x50257_S1_d1 h_S_)))))) (constant S_ .f32 0x00000000#32) reducesTo_S1x50257_S1_d1 h_S_))))

theorem tail_result (V : Valuation τ sig (Elt F)) :
    after tailOps V (Proc.devRef .tc main_v4) = lsmOf (V (Proc.devRef .tc main_v3)) := by
  after_results_simp <;> rfl <;> (unfold lsmOf; rfl)

theorem slice_result (V : Valuation τ sig (Elt F)) :
    after hostOps1 V (Proc.devRef .tc main_v3)
      = extractStridedSlice S1x50257 ![0, 0] (V (Proc.devRef .tc main_v2)) slices_S1x50688_S1x50257_0_0 := by
  after_results_simp <;> rfl

/-- Both stretches after the region, from any contents. -/
theorem after_region (V : Valuation τ sig (Elt F)) :
    after (List.flatten [hostOps1, hostOps1_1]) V (Proc.devRef .tc main_v4)
      = lsmOf (extractStridedSlice S1x50257 ![0, 0] (V (Proc.devRef .tc main_v2)) slices_S1x50688_S1x50257_0_0) := by
  rw [show (List.flatten [hostOps1, hostOps1_1] : List (HloOp τ sig (Elt F))) = hostOps1 ++ tailOps from by
    rw [List.flatten_cons, List.flatten_cons, List.flatten_nil, List.append_nil, tailOps_eq]]
  rw [StableHlo.after_append, tail_result, slice_result]

/-- Over the extended reals it is the specification's log-softmax. -/
theorem lsmOf_eq (x : (⟨S1x50257, .f32⟩ : BufTy).Contents (Elt Ideal)) :
    lsmOf (F := Ideal) x
      = Cert.Spec.lsm reducesTo_S1x50257_S1_d1 h_S_ bcast_S_S1 bcast_S1_S1x1_0 bcast_S1x1_S1x50257_0_1 x := by
  unfold lsmOf Cert.Spec.lsm
  rfl

end Cert.KernelIdeal.Tail

end
-- ==== Proof.KernelRun.lean ====
/-
  The idealized kernel's run, read: @main returns the log-softmax of the specification's row of sums (with the kernel's
  way of writing the weight) of its three arguments, and leaves the arguments as they were.
-/
import proofs.«415057_j28071906246843_1_alg».proof.Proof.Final
import proofs.«415057_j28071906246843_1_alg».proof.Proof.Tail

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Final Cert.Spec

variable (m : (ℓ : Loc nD τ sig) → Buf (Elt Ideal) ℓ) (ρ : Dev nD → PrngReg)

/-- After the region the output array holds the row of column sums. -/
theorem arr_out (c : Dev nD) :
    Pipeline.withArrays spec0 c (V0 m c) (fun w => (dats m 0 c).arrAt w cfg0.N) (Proc.devRef .tc main_v2) = rowK m c :=
  (Pipeline.withArrays_arr spec0 launch0.win.arr_inj c (V0 m c) (fun w => (dats m 0 c).arrAt w cfg0.N) 3).trans (final_row m c)

/-- What the host operations after the region make of the row the region leaves. -/
theorem result_eq (c : Dev nD) :
    Pipeline.afterTail₀ cfgs (dats m) 0 (V0 m) [hostOps1, hostOps1_1] c main_v4
      = lsm reducesTo_S1x50257_S1_d1 h_S_ bcast_S_S1 bcast_S1_S1x1_0 bcast_S1x1_S1x50257_0_1
          (cacheP wKer (argH m c) (argC m c) (argW m c)) := by
  unfold Pipeline.afterTail₀
  rw [Tail.after_region]
  rw [arr_out m c]
  rw [Tail.lsmOf_eq, slice_row]

/-- The run: the result at the log-softmax of the row of sums, the arguments unchanged. -/
theorem run : θ_run defs (onTc (τ := τ) (main (F := Ideal))) ⟨m, fun _ => 0, ρ⟩ fun r => ∀ c : Dev nD,
      r.2.mem ((c.tc : Thread nD τ).loc main_v4)
        = lsm reducesTo_S1x50257_S1_d1 h_S_ bcast_S_S1 bcast_S1_S1x1_0 bcast_S1x1_S1x50257_0_1
            (cacheP wKer (argH m c) (argC m c) (argW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelIdeal.Result

end
-- ==== Proof.RefRow.lean ====
/-
  The reference, read against the specification.

  The reference gathers, for every cache position j, the vocabulary row its word selects (a negative word counted from
  the table's end, the result clamped into the table), takes exp (‖c_j − that row‖ / 32), and scatter-adds these values
  into a zero row of 50257 entries at the positions' words, read as signed numbers; a word that is no vocabulary index
  lands outside the row and adds nothing.  So entry v receives exactly the positions whose word is v, and for those the
  gathered row is vocabulary row v: the row of sums of the specification, with the reference's way of writing the weight.
  What @main returns is the log-softmax of that row.
-/
import proofs.«415057_j28071906246843_1_alg».proof.Proof.RefRead
import proofs.«415057_j28071906246843_1_alg».proof.Proof.Spec
import Idealize.ShloMosaic.Lib.ValueIdx
import Idealize.ShloMosaic.Lib.Pipeline.Value
import Idealize.ShloMosaic.PureOps.Ideal.Laws

noncomputable section

namespace Cert.ReferenceIdeal.RefRow

open Idealize.ShloMosaic Idealize.ShloMosaic.ValueIdx Cert.ReferenceIdeal Cert.ReferenceIdeal.ReadP Cert.Spec

section Scatter
variable [Cert.ReferenceIdeal.Facts]

/-- The scatter's start on the one operand axis is the position's word, read signed. -/
theorem scatter_start (j : S131072.Idx) (idx : IVec S131072x1 32) (a : Fin S50257.rank) :
    scatter_S50257_S131072x1_S131072_n_0_0_1.start j idx a = (idx (ix2 (j 0) 0)).toInt := by
  obtain rfl : a = 0 := Subsingleton.elim _ _
  unfold ScatterDims.start
  rw [dif_pos (show (0 : Fin S50257.rank) ∈ scatter_S50257_S131072x1_S131072_n_0_0_1.scatterDimsToOperandDims from
    List.mem_singleton.mpr rfl)]
  refine congrArg (fun q => (idx q).toInt) ?_
  funext b; refine Fin.ext ?_
  match b with
  | ⟨0, _⟩ => rfl
  | ⟨1, _⟩ => rfl

/-- The scatter has no window axis: the window coordinate is zero. -/
theorem scatter_window (j : S131072.Idx) (a : Fin S50257.rank) :
    scatter_S50257_S131072x1_S131072_n_0_0_1.window j a = 0 := by
  obtain rfl : a = 0 := Subsingleton.elim _ _
  unfold ScatterDims.window
  rw [dif_neg (by decide)]

/-- A 32-bit word read signed is the number v < 50257 exactly when it is the word of v. -/
theorem toInt_eq_iff (w : BitVec 32) (v : Nat) (hv : v < 50257) : w.toInt = (v : Int) ↔ w = BitVec.ofNat 32 v := by
  have hw := w.isLt
  constructor
  · intro h
    apply BitVec.eq_of_toNat_eq
    rw [BitVec.toNat_ofNat, BitVec.toInt_eq_toNat_cond] at *
    split at h <;> omega
  · rintro rfl
    rw [BitVec.toInt_eq_toNat_cond, BitVec.toNat_ofNat]
    split <;> omega

/-- Update j lands on entry v exactly when position j's word, read signed, is v. -/
theorem scatter_resultIdx_iff (j : S131072.Idx) (idx : IVec S131072x1 32) (v : Fin 50257) :
    scatter_S50257_S131072x1_S131072_n_0_0_1.resultIdx? j idx = some (ix1 v)
      ↔ idx (ix2 (j 0) 0) = BitVec.ofNat 32 v.val := by
  rw [← toInt_eq_iff _ _ v.isLt]
  unfold ScatterDims.resultIdx?
  constructor
  · intro h
    split at h
    · rename_i hc
      have hv := congrArg (fun f => (f (0 : Fin S50257.rank)).val) (Option.some.inj h)
      have h0 := hc 0
      simp only [scatter_start, scatter_window] at hv h0
      have hv' : ((idx (ix2 (j 0) 0)).toInt + ((0 : Nat) : Int)).toNat = v.val := hv
      have h0' : 0 ≤ (idx (ix2 (j 0) 0)).toInt + ((0 : Nat) : Int)
        ∧ (idx (ix2 (j 0) 0)).toInt + ((0 : Nat) : Int) < ((50257 : Nat) : Int) := h0
      omega
    · exact absurd h (by simp)
  · intro h
    have hv := v.isLt
    have hc : ∀ a, 0 ≤ scatter_S50257_S131072x1_S131072_n_0_0_1.start j idx a
          + scatter_S50257_S131072x1_S131072_n_0_0_1.window j a
        ∧ scatter_S50257_S131072x1_S131072_n_0_0_1.start j idx a
          + scatter_S50257_S131072x1_S131072_n_0_0_1.window j a < S50257.size a := by
      intro a
      rw [scatter_start, scatter_window, h]
      obtain rfl : a = 0 := Subsingleton.elim _ _
      show 0 ≤ (v.val : Int) + ((0 : Nat) : Int) ∧ (v.val : Int) + ((0 : Nat) : Int) < ((50257 : Nat) : Int)
      omega
    rw [dif_pos hc]
    congr 1
    funext a
    obtain rfl : a = 0 := Subsingleton.elim _ _
    refine Fin.ext ?_
    show (scatter_S50257_S131072x1_S131072_n_0_0_1.start j idx 0
      + scatter_S50257_S131072x1_S131072_n_0_0_1.window j 0).toNat = v.val
    rw [scatter_start, scatter_window, h]; omega

end Scatter

section Gather
variable [Cert.ReferenceIdeal.Facts]

/-- The gather's start on the row axis: the position's wrapped word, read signed, clamped into the table. -/
theorem gather_start0 (y : S131072x1024.Idx) (idx : IVec S131072x1 32) :
    gather_S50257x1024_S131072x1_S131072x1024_1_0_n_n_0_1_11024.start y idx 0
      = min (idx (ix2 (y 0) 0)).toInt.toNat 50256 := by
  unfold GatherDims.start
  rw [dif_pos (show (0 : Fin S50257x1024.rank)
    ∈ gather_S50257x1024_S131072x1_S131072x1024_1_0_n_n_0_1_11024.startIndexMap from List.mem_singleton.mpr rfl)]
  refine congrArg (fun q => min (idx q).toInt.toNat 50256) ?_
  funext b; refine Fin.ext ?_
  match b with
  | ⟨0, _⟩ => rfl
  | ⟨1, _⟩ => rfl

/-- On the column axis the start is zero: the start index names the row axis only. -/
theorem gather_start1 (y : S131072x1024.Idx) (idx : IVec S131072x1 32) :
    gather_S50257x1024_S131072x1_S131072x1024_1_0_n_n_0_1_11024.start y idx 1 = 0 := by
  unfold GatherDims.start
  rw [dif_neg (by decide)]

/-- The row axis is collapsed: no offset coordinate. -/
theorem gather_off0 (y : S131072x1024.Idx) :
    gather_S50257x1024_S131072x1_S131072x1024_1_0_n_n_0_1_11024.offCoord y 0 = 0 :=
  GatherDims.offCoord_eq_zero _ _ _ (by decide)

/-- The column axis is the one offset axis: its coordinate is the result's column. -/
theorem gather_off1 (y : S131072x1024.Idx) :
    gather_S50257x1024_S131072x1_S131072x1024_1_0_n_n_0_1_11024.offCoord y 1 = (y 1).val := by
  unfold GatherDims.offCoord
  rw [dif_pos (by decide)]
  rfl

/-- The gather read at (j, k): the table at the row the wrapped word names (signed, clamped), column k. -/
theorem gather_apply {α : Type} (x : S50257x1024.Idx → α) (idx : IVec S131072x1 32) (j : Fin 131072) (k : Fin 1024) :
    Host.gather gather_S50257x1024_S131072x1_S131072x1024_1_0_n_n_0_1_11024 x idx (ix2 j k)
      = x (ix2 ⟨min (idx (ix2 j 0)).toInt.toNat 50256, by omega⟩ k) := by
  unfold Host.gather
  refine congrArg x ?_
  funext a; refine Fin.ext ?_
  match a with
  | ⟨0, _⟩ =>
    show gather_S50257x1024_S131072x1_S131072x1024_1_0_n_n_0_1_11024.start (ix2 j k) idx 0
      + gather_S50257x1024_S131072x1_S131072x1024_1_0_n_n_0_1_11024.batchCoord (ix2 j k) 0
      + gather_S50257x1024_S131072x1_S131072x1024_1_0_n_n_0_1_11024.offCoord (ix2 j k) 0 = _
    rw [gather_start0, GatherDims.batchCoord_eq_zero _ _ _ List.not_mem_nil, gather_off0]
    rfl
  | ⟨1, _⟩ =>
    show gather_S50257x1024_S131072x1_S131072x1024_1_0_n_n_0_1_11024.start (ix2 j k) idx 1
      + gather_S50257x1024_S131072x1_S131072x1024_1_0_n_n_0_1_11024.batchCoord (ix2 j k) 1
      + gather_S50257x1024_S131072x1_S131072x1024_1_0_n_n_0_1_11024.offCoord (ix2 j k) 1 = _
    rw [gather_start1, GatherDims.batchCoord_eq_zero _ _ _ List.not_mem_nil, gather_off1]
    show 0 + 0 + k.val = k.val
    omega

end Gather

section Row
variable [Cert.ReferenceIdeal.Facts]

/-- A word of a vocabulary index is not negative: the signed comparison against zero fails. -/
theorem cmpi_slt_zero (v : Nat) (hv : v < 50257) : IntOp.cmpi .slt (BitVec.ofNat 32 v) 0#32 = 0#1 := by
  have h := (toInt_eq_iff (BitVec.ofNat 32 v) v hv).mpr rfl
  have hs : (BitVec.ofNat 32 v).slt 0#32 = false := by
    rw [BitVec.slt, h, BitVec.toInt_zero]
    exact decide_eq_false (by omega)
  unfold IntOp.cmpi
  show BitVec.ofBool ((BitVec.ofNat 32 v).slt 0#32) = 0#1
  rw [hs]; rfl

/-- Where position j's word is the vocabulary index v, the wrapped word is v itself. -/
theorem wrap_of_eq (x2 : (⟨S131072, .i32⟩ : BufTy).Contents (Elt Ideal)) (j : Fin 131072) (v : Fin 50257)
    (h : x2 (ix1 j) = BitVec.ofNat 32 v.val) :
    val_main_v5 (F := Ideal) x2 (ix2 j 0) = BitVec.ofNat 32 v.val := by
  have hi : idx_main_v5 (ix2 j (0 : Fin 1)) = ix1 j := by
    funext a; match a with | ⟨0, _⟩ => rfl
  rw [val_main_v5_apply, hi, val_main_v4_apply, val_main_v1_apply, val_main_v0_apply, val_main_c_apply, h,
    cmpi_slt_zero _ v.isLt, select_zero]

/-- There the gathered row is vocabulary row v. -/
theorem gathered_of_eq (x0 : (⟨S50257x1024, .f32⟩ : BufTy).Contents (Elt Ideal))
    (x2 : (⟨S131072, .i32⟩ : BufTy).Contents (Elt Ideal)) (j : Fin 131072) (v : Fin 50257)
    (h : x2 (ix1 j) = BitVec.ofNat 32 v.val) (k : Fin 1024) :
    val_main_v6 (F := Ideal) x0 x2 (ix2 j k) = x0 (ix2 v k) := by
  unfold val_main_v6
  rw [gather_apply]
  refine congrArg x0 ?_
  have hw := wrap_of_eq x2 j v h
  have ht := (toInt_eq_iff (BitVec.ofNat 32 v.val) v.val v.isLt).mpr rfl
  have hv := v.isLt
  funext a; refine Fin.ext ?_
  match a with
  | ⟨0, _⟩ =>
    show min (val_main_v5 (F := Ideal) x2 (ix2 j 0)).toInt.toNat 50256 = v.val
    rw [hw, ht]; omega
  | ⟨1, _⟩ => rfl

/-- The value scattered from position j: exp (‖cache row j − gathered row‖ / 32). -/
theorem upd_apply (x0 : (⟨S50257x1024, .f32⟩ : BufTy).Contents (Elt Ideal))
    (x1 : (⟨S131072x1024, .f32⟩ : BufTy).Contents (Elt Ideal)) (x2 : (⟨S131072, .i32⟩ : BufTy).Contents (Elt Ideal))
    (j : Fin 131072) :
    val_main_v13 (F := Ideal) x0 x1 x2 (ix1 j)
      = Ideal.exp (Ideal.div (Ideal.sqrt (∑ k : Fin 1024,
          (x1 (ix2 j k) - val_main_v6 (F := Ideal) x0 x2 (ix2 j k))
            * (x1 (ix2 j k) - val_main_v6 (F := Ideal) x0 x2 (ix2 j k))))
          (Ideal.ofBits .f32 0x42000000#32)) := by
  have hi : ∀ k : Fin 1024, idx_main_v9 (ix1 j) k = ix2 j k := by
    intro k; funext a; match a with | ⟨0, _⟩ => rfl | ⟨1, _⟩ => rfl
  rw [val_main_v13_apply, val_main_v12_apply, val_main_v11_apply, val_main_cst_1_apply, val_main_v10_apply,
    val_main_v9_apply, val_main_cst_apply]
  simp only [Ideal.hostUnary_exp_def, Ideal.hostUnary_sqrt_def, Ideal.hostDivf_def, Ideal.ofBits_def,
    Ideal.ofBits_zero_f32, zero_add, hi, val_main_v8_apply, val_main_v7_apply, Ideal.mulf_def, Ideal.subf_def]

/-- Where position j's word is v, the scattered value is the reference's weight of rows v and j. -/
theorem upd_of_eq (x0 : (⟨S50257x1024, .f32⟩ : BufTy).Contents (Elt Ideal))
    (x1 : (⟨S131072x1024, .f32⟩ : BufTy).Contents (Elt Ideal)) (x2 : (⟨S131072, .i32⟩ : BufTy).Contents (Elt Ideal))
    (j : Fin 131072) (v : Fin 50257) (h : x2 (ix1 j) = BitVec.ofNat 32 v.val) :
    val_main_v13 (F := Ideal) x0 x1 x2 (ix1 j) = wRef (hrow x0 v) (crow x1 j) := by
  rw [upd_apply]
  unfold wRef
  simp only [gathered_of_eq x0 x2 j v h]

/-- Update j lands on entry v exactly when position j's word is the word of v. -/
theorem lands_iff (x2 : (⟨S131072, .i32⟩ : BufTy).Contents (Elt Ideal)) (j : Fin 131072) (v : Fin 50257) :
    scatter_S50257_S131072x1_S131072_n_0_0_1.resultIdx? (ix1 j) (val_main_v15 (F := Ideal) x2) = some (ix1 v)
      ↔ x2 (ix1 j) = BitVec.ofNat 32 v.val := by
  have hi : idx_main_v15 (ix2 j (0 : Fin 1)) = ix1 j := by
    funext a; match a with | ⟨0, _⟩ => rfl
  rw [scatter_resultIdx_iff]
  show val_main_v15 (F := Ideal) x2 (ix2 j 0) = _ ↔ _
  rw [val_main_v15_apply, hi]

/-- The positions as indices of the update array. -/
def posEquiv : Fin 131072 ≃ S131072.Idx where
  toFun := ix1
  invFun := fun j => j 0
  left_inv := fun _ => rfl
  right_inv := fun j => (eq_ix1 j).symm

end Row

open Cert.ReferenceIdeal.Facts₀ in
/-- The reference's row of sums (the operand of its log-softmax) is the specification's, with the reference's weight. -/
theorem row_eq [Cert.ReferenceIdeal.Facts] (x0 : (⟨S50257x1024, .f32⟩ : BufTy).Contents (Elt Ideal))
    (x1 : (⟨S131072x1024, .f32⟩ : BufTy).Contents (Elt Ideal)) (x2 : (⟨S131072, .i32⟩ : BufTy).Contents (Elt Ideal)) :
    val_main_v17 (F := Ideal) x0 x1 x2 = cacheP wRef x0 x1 x2 := by
  funext i
  have hi : idx_main_v17 i = ix1 (⟨(i 1).val, (i 1).isLt⟩ : Fin 50257) := by
    funext a; match a with | ⟨0, _⟩ => rfl
  rw [val_main_v17_apply, hi]
  unfold val_main_v16 Host.scatterAdd
  rw [Ideal.hostScatterAdd_def]
  unfold Ideal.hostScatterAdd
  rw [val_main_v14_apply, val_main_cst_2_apply, Ideal.ofBits_def, Ideal.ofBits_zero_f32, zero_add, Finset.sum_filter]
  unfold cacheP
  refine (Fintype.sum_equiv posEquiv _ _ fun j => ?_).symm
  by_cases h : x2 (ix1 j) = BitVec.ofNat 32 (i 1).val
  · rw [if_pos h]
    exact ((if_pos ((lands_iff x2 j ⟨(i 1).val, (i 1).isLt⟩).mpr h)).trans
      (upd_of_eq x0 x1 x2 j ⟨(i 1).val, (i 1).isLt⟩ h)).symm
  · rw [if_neg h]
    exact (if_neg fun h' => h ((lands_iff x2 j ⟨(i 1).val, (i 1).isLt⟩).mp h')).symm

open Cert.ReferenceIdeal.Facts₀ in
/-- What the reference returns is the log-softmax of that row. -/
theorem result_eq [Cert.ReferenceIdeal.Facts] (x0 : (⟨S50257x1024, .f32⟩ : BufTy).Contents (Elt Ideal))
    (x1 : (⟨S131072x1024, .f32⟩ : BufTy).Contents (Elt Ideal)) (x2 : (⟨S131072, .i32⟩ : BufTy).Contents (Elt Ideal)) :
    val_main_v18 (F := Ideal) x0 x1 x2
      = lsm reducesTo_S1x50257_S1_d1 h_S_ bcast_S_S1 bcast_S1_S1x1_0 bcast_S1x1_S1x50257_0_1 (cacheP wRef x0 x1 x2) := by
  unfold val_main_v18 val_main_call0_v10 val_main_call0_v9 val_main_call0_v8 val_main_call0_v7 val_main_call0_v6
    val_main_call0_v5 val_main_call0_v4 val_main_call0_v3 val_main_call0_v2 val_main_call0_v1 val_main_call0_v0
    val_main_call0_cst val_main_call0_cst_0 val_main_call0_cst_1
  rw [row_eq]
  unfold lsm
  rfl

end Cert.ReferenceIdeal.RefRow

end
-- ==== Proof.FiniteInputs.lean ====
/-
  The precondition read: where it holds, every entry of the two float tables is a real number.
  (|x| < +∞ on the extended reals leaves exactly the reals.)
-/
import proofs.«415057_j28071906246843_1_alg».proof.Pre_finite_inputs
import proofs.«415057_j28071906246843_1_alg».proof.Proof.Gen.Pre_finite_inputs
import proofs.«415057_j28071906246843_1_alg».proof.Proof.Spec
import Idealize.ShloMosaic.Lib.ReduceAll

noncomputable section

namespace Cert.Spec

open Idealize.ShloMosaic Idealize.ShloMosaic.ValueIdx

/-- The single-precision pattern of +∞ is the top of the extended reals. -/
theorem ofBits_posInf_f32 : Ideal.ofBits .f32 0x7F800000#32 = (⊤ : EReal) := by
  simp [Ideal.ofBits, Ideal.ieee]

/-- An extended real whose absolute value max x (−x) is below +∞ is a real number:
    at ⊤ the maximum is ⊤, at ⊥ it is −⊥ = ⊤, and neither is below ⊤. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- The printed element test |x| < +∞, read at one entry. -/
theorem real_of_cmp (x : Ideal .f32)
    (h : FloatOps.cmpf .olt (FloatOps.hostAbsf x) (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_posInf_f32] at h
  refine real_of_abs_lt_top x ?_
  by_contra hn
  simp [Ideal.cmp, hn] at h

/-- The result shape of a reduction over every axis has one index. -/
instance : Subsingleton Cert.Pre_finite_inputs.S_.Idx := ⟨fun a b => funext fun d => d.elim0⟩

/-- Where the printed precondition is all ones, both float tables hold real numbers. -/
theorem real_of_pre [Cert.Pre_finite_inputs.Facts] (H : FVec Ideal SH .f32) (C : FVec Ideal SC .f32) (W : IVec SW 32)
    (h : Cert.Pre_finite_inputs.fn (F := Ideal) H C W = fun _ => 1#1) :
    (∀ i, ∃ r : ℝ, H i = (r : EReal)) ∧ (∀ i, ∃ r : ℝ, C i = (r : EReal)) := by
  have h0 := congrFun h ValueIdx.ix0
  dsimp only [Cert.Pre_finite_inputs.fn] at h0
  obtain ⟨hH, hC⟩ := IntOp.andi_eq_one.1 h0
  constructor
  · intro i
    exact real_of_cmp (H i) (Host.reduce_andi_all _ _ _ _ _ hH i)
  · intro i
    exact real_of_cmp (C i) (Host.reduce_andi_all _ _ _ _ _ hC i)

end Cert.Spec

end
-- ==== Proof.lean ====
/-
  The certificate: the kernel and the reference compute the same function of (h_t, cache_h, cache_words) over the
  extended reals, whenever the two float tables hold finite numbers.

  Both programs return the log-softmax of a row of 50257 sums.  Entry v of that row adds, over the cache positions j
  whose word is v, a weight of the distance between cache row j and vocabulary row v.  A cache word that is not a
  vocabulary index (negative ones included) matches no v in either program: the reference's scatter drops it, the
  kernel's comparison against the vocabulary ids never succeeds; so no condition on the words is needed.
  The programs differ in two ways.  The weight: the reference computes exp (‖c − h‖ / 32) from the summed squared
  differences; the kernel expands the square into ‖c‖² + ‖h‖² − 2⟨c, h⟩ (the inner products one matrix product per tile),
  clamps at zero and multiplies by 1/32.  On real rows the expansion is an identity, the clamp is idle, and 1/32 is
  exact (this is where finiteness is used).  The sum: the reference gathers and scatter-adds over all 131072 cache
  positions at once; the kernel runs a 99 × 128 grid of (vocabulary tile, cache tile) points, masks a 1024 × 512 tile of
  weights by the equality of words and vocabulary ids, sums it over the cache rows and accumulates the 128 cache tiles
  of a vocabulary tile in a scratch row, written out at the last of them.  Addition of extended reals is commutative
  and associative, so the tiled sum is the whole sum.
-/
import proofs.«415057_j28071906246843_1_alg».proof.Defs
import proofs.«415057_j28071906246843_1_alg».proof.Proof.Gen.Kernel
import proofs.«415057_j28071906246843_1_alg».proof.Proof.Gen.Kernel.Frame
import proofs.«415057_j28071906246843_1_alg».proof.Proof.Gen.KernelIdeal
import proofs.«415057_j28071906246843_1_alg».proof.Proof.Gen.KernelIdeal.Frame
import proofs.«415057_j28071906246843_1_alg».proof.Proof.Gen.ReferenceIdeal
import proofs.«415057_j28071906246843_1_alg».proof.Proof.Gen.Pre_finite_inputs
import proofs.«415057_j28071906246843_1_alg».proof.Proof.KernelRun
import proofs.«415057_j28071906246843_1_alg».proof.Proof.RefRun
import proofs.«415057_j28071906246843_1_alg».proof.Proof.RefRead
import proofs.«415057_j28071906246843_1_alg».proof.Proof.RefRow
import proofs.«415057_j28071906246843_1_alg».proof.Proof.WeightLaw
import proofs.«415057_j28071906246843_1_alg».proof.Proof.FiniteInputs
import Idealize.ShloMosaic.Adequacy
import Idealize.ShloMosaic.Init

noncomputable section

namespace Cert.Proof

open Idealize.ShloMosaic Idealize.SL.Sem

/-- The three programs run, without a fault, and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on finite tables both programs end at the log-softmax of one and the same row of sums: the
    kernel's with its own way of writing the weight, the reference's with the reference's, equal on real rows. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  obtain ⟨hH, hC⟩ := Cert.Spec.real_of_pre _ _ _ (hpre c)
  rw [Cert.ReferenceIdeal.ReadP.val_main_v18_eq, Cert.ReferenceIdeal.RefRow.result_eq, (hagree c).1, (hagree c).2.1,
    (hagree c).2.2, Cert.Spec.cacheP_wKer_eq_wRef _ _ _ hH hC]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
